-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192 : Shape := ⟨2, ![32, 8192]⟩
abbrev S1024x8192 : Shape := ⟨2, ![1024, 8192]⟩
abbrev S64x8192 : Shape := ⟨2, ![64, 8192]⟩
abbrev S8192 : Shape := ⟨1, ![8192]⟩
abbrev S_ : Shape := ⟨0, ![]⟩

class Facts : Prop where
  bcast_S_S32x8192 : S_.BroadcastsInDim S32x8192 (![] : Fin 0 → Fin S32x8192.rank)
  reducesTo_S32x8192_S_d0_1 : S32x8192.ReducesTo [0, 1] S_
  h_S_ : 0 < S_.numel
  bcast_S_S64x8192 : S_.BroadcastsInDim S64x8192 (![] : Fin 0 → Fin S64x8192.rank)
  reducesTo_S64x8192_S_d0_1 : S64x8192.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S32x8192 .f32) (main_arg1 : IVec S1024x8192 32) (main_arg2 : FVec F S64x8192 .f32) (main_arg3 : FVec F S8192 .f32) : IVec S_ 1 :=
  let main_v0 : FVec F S32x8192 .f32 := Host.absf main_arg0
  let main_cst : FVec F S_ .f32 := constant S_ .f32 0x7F800000#32
  let main_v1 : FVec F S32x8192 .f32 := broadcastInDim S32x8192 ![] bcast_S_S32x8192 main_cst
  let main_v2 : IVec S32x8192 1 := cmpf .olt main_v0 main_v1
  let main_c : IVec S_ 1 := constantI S_ 1 1#1
  let main_v3 : IVec S_ 1 := (fun x v => Host.reduce IntOp.andi x v reducesTo_S32x8192_S_d0_1 h_S_) main_v2 main_c
  let main_v4 : FVec F S64x8192 .f32 := Host.absf main_arg2
  let main_cst_0 : FVec F S_ .f32 := constant S_ .f32 0x7F800000#32
  let main_v5 : FVec F S64x8192 .f32 := broadcastInDim S64x8192 ![] bcast_S_S64x8192 main_cst_0
  let main_v6 : IVec S64x8192 1 := cmpf .olt main_v4 main_v5
  let main_c_1 : IVec S_ 1 := constantI S_ 1 1#1
  let main_v7 : IVec S_ 1 := (fun x v => Host.reduce IntOp.andi x v reducesTo_S64x8192_S_d0_1 h_S_) main_v6 main_c_1
  let main_v8 : IVec S_ 1 := andi main_v3 main_v7
  let main_v9 : FVec F S8192 .f32 := Host.absf main_arg3
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S32x8192 : Shape := ⟨2, ![32, 8192]⟩
abbrev S1024x8192 : Shape := ⟨2, ![1024, 8192]⟩
abbrev S64x8192 : Shape := ⟨2, ![64, 8192]⟩
abbrev S8192 : Shape := ⟨1, ![8192]⟩
abbrev S1x8192 : Shape := ⟨2, ![1, 8192]⟩
abbrev S32x64x128 : Shape := ⟨3, ![32, 64, 128]⟩
abbrev S_ : Shape := ⟨0, ![]⟩
abbrev S32x64 : Shape := ⟨2, ![32, 64]⟩
abbrev S64x32 : Shape := ⟨2, ![64, 32]⟩
abbrev S32x2048 : Shape := ⟨2, ![32, 2048]⟩
abbrev S256x2048 : Shape := ⟨2, ![256, 2048]⟩
abbrev S16x2048 : Shape := ⟨2, ![16, 2048]⟩
abbrev S16x32 : Shape := ⟨2, ![16, 32]⟩
abbrev S1x2048 : Shape := ⟨2, ![1, 2048]⟩
abbrev S1x8x1 : Shape := ⟨3, ![1, 8, 1]⟩
abbrev S128x2048 : Shape := ⟨2, ![128, 2048]⟩
abbrev S8x2048 : Shape := ⟨2, ![8, 2048]⟩
abbrev S128x1x2048 : Shape := ⟨3, ![128, 1, 2048]⟩
abbrev S128x8x2048 : Shape := ⟨3, ![128, 8, 2048]⟩
abbrev S1024x2048 : Shape := ⟨2, ![1024, 2048]⟩
abbrev S8x128x2048 : Shape := ⟨3, ![8, 128, 2048]⟩
abbrev S8x1x2048 : Shape := ⟨3, ![8, 1, 2048]⟩
abbrev S32x1024 : Shape := ⟨2, ![32, 1024]⟩

abbrev nBuf : Space → Nat
  | .hbm => 12
  | .vmem => 13
  | .smem => 0
  | _ => 0

abbrev bufTy : (tb : Table) → Fin (tcTables nBuf tb) → BufTy
  | .hbm, ⟨0, _⟩ => ⟨S32x8192, .f32⟩
  | .hbm, ⟨1, _⟩ => ⟨S1024x8192, .i32⟩
  | .hbm, ⟨2, _⟩ => ⟨S64x8192, .f32⟩
  | .hbm, ⟨3, _⟩ => ⟨S8192, .f32⟩
  | .hbm, ⟨4, _⟩ => ⟨S1x8192, .f32⟩
  | .hbm, ⟨5, _⟩ => ⟨S32x8192, .bf16⟩
  | .hbm, ⟨6, _⟩ => ⟨S32x64x128, .f32⟩
  | .hbm, ⟨7, _⟩ => ⟨S_, .f32⟩
  | .hbm, ⟨8, _⟩ => ⟨S32x64, .f32⟩
  | .hbm, ⟨9, _⟩ => ⟨S64x32, .f32⟩
  | .hbm, ⟨10, _⟩ => ⟨S64x32, .bf16⟩
  | .hbm, ⟨11, _⟩ => ⟨S32x8192, .f32⟩
  | .local _ .vmem, ⟨0, _⟩ => ⟨S32x2048, .bf16⟩
  | .local _ .vmem, ⟨1, _⟩ => ⟨S32x2048, .bf16⟩
  | .local _ .vmem, ⟨2, _⟩ => ⟨S256x2048, .i32⟩
  | .local _ .vmem, ⟨3, _⟩ => ⟨S256x2048, .i32⟩
  | .local _ .vmem, ⟨4, _⟩ => ⟨S16x2048, .f32⟩
  | .local _ .vmem, ⟨5, _⟩ => ⟨S16x2048, .f32⟩
  | .local _ .vmem, ⟨6, _⟩ => ⟨S16x32, .bf16⟩
  | .local _ .vmem, ⟨7, _⟩ => ⟨S16x32, .bf16⟩
  | .local _ .vmem, ⟨8, _⟩ => ⟨S1x2048, .f32⟩
  | .local _ .vmem, ⟨9, _⟩ => ⟨S1x2048, .f32⟩
  | .local _ .vmem, ⟨10, _⟩ => ⟨S32x2048, .f32⟩
  | .local _ .vmem, ⟨11, _⟩ => ⟨S32x2048, .f32⟩
  | .local _ .vmem, ⟨12, _⟩ => ⟨S32x2048, .f32⟩
  | _, _ => ⟨S32x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32_1 : BitVec 32 := 0#32
  let c2_i32 : BitVec 32 := 2#32
  let v6 : BitVec 32 := Scalar.addi c0_i32_1 c2_i32
  let c1_i32 : BitVec 32 := 1#32
  ⟨c0_i32_1, v6, c1_i32⟩
def k0_mult1 (k0_t1 : Fin k0_t1_loop.trips) : BitVec 32 :=
  let c0_i32_13 : BitVec 32 := 0#32
  let c0_i32_1 : BitVec 32 := 0#32
  let c1_i32 : BitVec 32 := 1#32
  let arg9 : BitVec 32 := Scf.iv c0_i32_1 c1_i32 k0_t1
  let c1_i32_12 : BitVec 32 := 1#32
  let v22 : BitVec 32 := Scalar.muli arg9 c1_i32_12
  let v23 : BitVec 32 := Scalar.addi c0_i32_13 v22
  let c128_i32 : BitVec 32 := 128#32
  let v24 : BitVec 32 := Scalar.muli v23 c128_i32
  v24
def k0_mult2 (k0_t1 : Fin k0_t1_loop.trips) : BitVec 32 :=
  let c0_i32_13 : BitVec 32 := 0#32
  let c0_i32_1 : BitVec 32 := 0#32
  let c1_i32 : BitVec 32 := 1#32
  let arg9 : BitVec 32 := Scf.iv c0_i32_1 c1_i32 k0_t1
  let c1_i32_12 : BitVec 32 := 1#32
  let v22 : BitVec 32 := Scalar.muli arg9 c1_i32_12
  let v23 : BitVec 32 := Scalar.addi c0_i32_13 v22
  let c8_i32 : BitVec 32 := 8#32
  let v26 : BitVec 32 := Scalar.muli v23 c8_i32
  v26
def k0_mult3 (k0_t1 : Fin k0_t1_loop.trips) : BitVec 32 :=
  let c0_i32_13 : BitVec 32 := 0#32
  let c0_i32_1 : BitVec 32 := 0#32
  let c1_i32 : BitVec 32 := 1#32
  let arg9 : BitVec 32 := Scf.iv c0_i32_1 c1_i32 k0_t1
  let c1_i32_12 : BitVec 32 := 1#32
  let v22 : BitVec 32 := Scalar.muli arg9 c1_i32_12
  let v23 : BitVec 32 := Scalar.addi c0_i32_13 v22
  let c1024_i32 : BitVec 32 := 1024#32
  let v28 : BitVec 32 := Scalar.muli v23 c1024_i32
  v28
def k0_off1 (k0_t1 : Fin k0_t1_loop.trips) : Fin 2 → Nat :=
  let c0_i32_13 : BitVec 32 := 0#32
  let c0_i32_1 : BitVec 32 := 0#32
  let c1_i32 : BitVec 32 := 1#32
  let arg9 : BitVec 32 := Scf.iv c0_i32_1 c1_i32 k0_t1
  let c1_i32_12 : BitVec 32 := 1#32
  let v22 : BitVec 32 := Scalar.muli arg9 c1_i32_12
  let v23 : BitVec 32 := Scalar.addi c0_i32_13 v22
  let c128_i32 : BitVec 32 := 128#32
  let v24 : BitVec 32 := Scalar.muli v23 c128_i32
  let v25 : BitVec 32 := v24
  let v30 : Index := Scalar.indexCast v25
  let c0_14 : Index := 0#32
  ![v30.toNat, 0]
def k0_off2 (k0_t1 : Fin k0_t1_loop.trips) : Fin 2 → Nat :=
  let c0_i32_13 : BitVec 32 := 0#32
  let c0_i32_1 : BitVec 32 := 0#32
  let c1_i32 : BitVec 32 := 1#32
  let arg9 : BitVec 32 := Scf.iv c0_i32_1 c1_i32 k0_t1
  let c1_i32_12 : BitVec 32 := 1#32
  let v22 : BitVec 32 := Scalar.muli arg9 c1_i32_12
  let v23 : BitVec 32 := Scalar.addi c0_i32_13 v22
  let c8_i32 : BitVec 32 := 8#32
  let v26 : BitVec 32 := Scalar.muli v23 c8_i32
  let v27 : BitVec 32 := v26
  let v32 : Index := Scalar.indexCast v27
  let c0_15 : Index := 0#32
  ![v32.toNat, 0]
def k0_off3 (k0_t1 : Fin k0_t1_loop.trips) : Fin 2 → Nat :=
  let c0_16 : Index := 0#32
  let c0_i32_13 : BitVec 32 := 0#32
  let c0_i32_1 : BitVec 32 := 0#32
  let c1_i32 : BitVec 32 := 1#32
  let arg9 : BitVec 32 := Scf.iv c0_i32_1 c1_i32 k0_t1
  let c1_i32_12 : BitVec 32 := 1#32
  let v22 : BitVec 32 := Scalar.muli arg9 c1_i32_12
  let v23 : BitVec 32 := Scalar.addi c0_i32_13 v22
  let c1024_i32 : BitVec 32 := 1024#32
  let v28 : BitVec 32 := Scalar.muli v23 c1024_i32
  let v29 : BitVec 32 := v28
  let v48 : Index := Scalar.indexCast v29
  ![0, v48.toNat]
def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_11 : BitVec 32 := 0#32
  let v21 : BitVec 1 := Scalar.cmpi .ne v20 c0_i32_11
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S32x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x32 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S32x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S8192_S1x8192 : S8192.ShapeCasts S1x8192
  bitsLt_bf16_f32 : FTy.bits .bf16 < FTy.bits .f32
  shapeCasts_S32x8192_S32x64x128 : S32x8192.ShapeCasts S32x64x128
  reducesTo_S32x64x128_S32x64_d2 : S32x64x128.ReducesTo [2] S32x64
  h_S_ : 0 < S_.numel
  transposes_S32x64_S64x32_1_0 : S32x64.Transposes [1, 0] S64x32
  inb_S32x2048_S32x2048_0_0 : ∀ a, (![0, 0] : Fin 2 → Nat) a + S32x2048.size a ≤ S32x2048.size a
  h_S32x2048 : 0 < S32x2048.numel
  shapeCasts_S32x2048_S32x2048 : S32x2048.ShapeCasts S32x2048
  iota_S1x8x1_d1_w32 : S1x8x1.Iotas .tc 32 [1]
  h_S128x2048 : 0 < S128x2048.numel
  h_S8x2048 : 0 < S8x2048.numel
  shapeCasts_S128x2048_S128x1x2048 : S128x2048.ShapeCasts S128x1x2048
  broadcasts_S128x1x2048_S128x8x2048 : S128x1x2048.Broadcasts S128x8x2048
  broadcasts_S1x8x1_S128x8x2048 : S1x8x1.Broadcasts S128x8x2048
  shapeCasts_S128x8x2048_S1024x2048 : S128x8x2048.ShapeCasts S1024x2048
  shapeCasts_S1024x2048_S8x128x2048 : S1024x2048.ShapeCasts S8x128x2048
  shapeCasts_S8x2048_S8x1x2048 : S8x2048.ShapeCasts S8x1x2048
  broadcasts_S8x1x2048_S8x128x2048 : S8x1x2048.Broadcasts S8x128x2048
  shapeCasts_S8x128x2048_S1024x2048 : S8x128x2048.ShapeCasts S1024x2048
  h_S32x1024 : 0 < S32x1024.numel
  shapeCasts_S32x1024_S32x1024 : S32x1024.ShapeCasts S32x1024
  inb_S16x32_S16x32_0_0 : ∀ a, (![0, 0] : Fin 2 → Nat) a + S16x32.size a ≤ S16x32.size a
  h_S16x32 : 0 < S16x32.numel
  shapeCasts_S16x32_S16x32 : S16x32.ShapeCasts S16x32
  inb_S16x2048_S16x2048_0_0 : ∀ a, (![0, 0] : Fin 2 → Nat) a + S16x2048.size a ≤ S16x2048.size a
  h_S16x2048 : 0 < S16x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S32x2048 : S1x2048.Broadcasts S32x2048
  dot_S32x1024_S1024x2048_S32x2048_1_0_0_1_n_n_wf : DotDims.WF S32x1024 S1024x2048 S32x2048 [1] [0] [0] [1] [] []
  dot_S16x32_S16x2048_S32x2048_0_0_1_1_n_n_wf : DotDims.WF S16x32 S16x2048 S32x2048 [0] [0] [1] [1] [] []
  hrank0 : 0 < grid0.rank
  k0_t1_ok : k0_t1_loop.OK
  k0_mult1_dvd : ∀ k0_t1 : Fin k0_t1_loop.trips, 128 ∣ (k0_mult1 k0_t1).toNat
  k0_mult2_dvd : ∀ k0_t1 : Fin k0_t1_loop.trips, 8 ∣ (k0_mult2 k0_t1).toNat
  k0_mult3_dvd : ∀ k0_t1 : Fin k0_t1_loop.trips, 1024 ∣ (k0_mult3 k0_t1).toNat
  k0_off1_inb : ∀ k0_t1 : Fin k0_t1_loop.trips, ∀ a, (k0_off1 k0_t1) a + S128x2048.size a ≤ S256x2048.size a
  k0_off2_inb : ∀ k0_t1 : Fin k0_t1_loop.trips, ∀ a, (k0_off2 k0_t1) a + S8x2048.size a ≤ S16x2048.size a
  k0_off3_inb : ∀ k0_t1 : Fin k0_t1_loop.trips, ∀ a, (k0_off3 k0_t1) a + S32x1024.size a ≤ S32x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x2048.size a ≤ S32x8192.size a
  hwx0_0 : ∀ i : grid0.Coords, EltTy.bits .bf16 = 32 ∨ (Rect.block (s := S32x8192) S32x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S1024x8192.size a
  hwx0_1 : ∀ i : grid0.Coords, EltTy.bits .i32 = 32 ∨ (Rect.block (s := S1024x8192) S256x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x2048.size a ≤ S64x8192.size a
  hwx0_2 : ∀ i : grid0.Coords, EltTy.bits .f32 = 32 ∨ (Rect.block (s := S64x8192) S16x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x32.size a ≤ S64x32.size a
  hwx0_3 : ∀ i : grid0.Coords, EltTy.bits .bf16 = 32 ∨ (Rect.block (s := S64x32) S16x32.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x8192.size a
  hwx0_4 : ∀ i : grid0.Coords, EltTy.bits .f32 = 32 ∨ (Rect.block (s := S1x8192) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x2048.size a ≤ S32x8192.size a
  hwx0_5 : ∀ i : grid0.Coords, EltTy.bits .f32 = 32 ∨ (Rect.block (s := S32x8192) S32x2048.size (cc0_transform_5 i) (hinb0_5 i)).WholeWords (EltTy.packing .f32)

variable [Facts₀]

def dot_S32x1024_S1024x2048_S32x2048_1_0_0_1_n_n : DotDims S32x1024 S1024x2048 S32x2048 where
  lhsContracting := [1]
  rhsContracting := [0]
  lhsNonContracting := [0]
  rhsNonContracting := [1]
  lhsBatch := []
  rhsBatch := []
  wf := dot_S32x1024_S1024x2048_S32x2048_1_0_0_1_n_n_wf
def dot_S16x32_S16x2048_S32x2048_0_0_1_1_n_n : DotDims S16x32 S16x2048 S32x2048 where
  lhsContracting := [0]
  rhsContracting := [0]
  lhsNonContracting := [1]
  rhsNonContracting := [1]
  lhsBatch := []
  rhsBatch := []
  wf := dot_S16x32_S16x2048_S32x2048_0_0_1_1_n_n_wf

abbrev win0_0 : Pipeline.Window sig grid0 :=
  Pipeline.Window.ofSpec (Memref.whole main_v1) S32x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S16x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S32x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S32x8192 : Shape := ⟨2, ![32, 8192]⟩
abbrev S1024x8192 : Shape := ⟨2, ![1024, 8192]⟩
abbrev S64x8192 : Shape := ⟨2, ![64, 8192]⟩
abbrev S8192 : Shape := ⟨1, ![8192]⟩
abbrev S8 : Shape := ⟨1, ![8]⟩
abbrev S_ : Shape := ⟨0, ![]⟩
abbrev S1x8x1 : Shape := ⟨3, ![1, 8, 1]⟩
abbrev S1024x1x8192 : Shape := ⟨3, ![1024, 1, 8192]⟩
abbrev S1024x8x8192 : Shape := ⟨3, ![1024, 8, 8192]⟩
abbrev S8192x8192 : Shape := ⟨2, ![8192, 8192]⟩
abbrev S64x128x8192 : Shape := ⟨3, ![64, 128, 8192]⟩
abbrev S64x1x8192 : Shape := ⟨3, ![64, 1, 8192]⟩
abbrev S1x8192 : Shape := ⟨2, ![1, 8192]⟩

abbrev nBuf : Space → Nat
  | .hbm => 30
  | .vmem => 0
  | .smem => 0
  | _ => 0

abbrev bufTy : (tb : Table) → Fin (tcTables nBuf tb) → BufTy
  | .hbm, ⟨0, _⟩ => ⟨S32x8192, .f32⟩
  | .hbm, ⟨1, _⟩ => ⟨S1024x8192, .i32⟩
  | .hbm, ⟨2, _⟩ => ⟨S64x8192, .f32⟩
  | .hbm, ⟨3, _⟩ => ⟨S8192, .f32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S1x8x1, .i32⟩
  | .hbm, ⟨9, _⟩ => ⟨S1024x1x8192, .i32⟩
  | .hbm, ⟨10, _⟩ => ⟨S1024x8x8192, .i32⟩
  | .hbm, ⟨11, _⟩ => ⟨S1024x8x8192, .i32⟩
  | .hbm, ⟨12, _⟩ => ⟨S1024x8x8192, .i32⟩
  | .hbm, ⟨13, _⟩ => ⟨S_, .i32⟩
  | .hbm, ⟨14, _⟩ => ⟨S1024x8x8192, .i32⟩
  | .hbm, ⟨15, _⟩ => ⟨S1024x8x8192, .i32⟩
  | .hbm, ⟨16, _⟩ => ⟨S8192x8192, .i32⟩
  | .hbm, ⟨17, _⟩ => ⟨S8192x8192, .f32⟩
  | .hbm, ⟨18, _⟩ => ⟨S64x128x8192, .f32⟩
  | .hbm, ⟨19, _⟩ => ⟨S_, .f32⟩
  | .hbm, ⟨20, _⟩ => ⟨S64x128x8192, .f32⟩
  | .hbm, ⟨21, _⟩ => ⟨S64x128x8192, .f32⟩
  | .hbm, ⟨22, _⟩ => ⟨S64x1x8192, .f32⟩
  | .hbm, ⟨23, _⟩ => ⟨S64x128x8192, .f32⟩
  | .hbm, ⟨24, _⟩ => ⟨S64x128x8192, .f32⟩
  | .hbm, ⟨25, _⟩ => ⟨S8192x8192, .f32⟩
  | .hbm, ⟨26, _⟩ => ⟨S32x8192, .f32⟩
  | .hbm, ⟨27, _⟩ => ⟨S1x8192, .f32⟩
  | .hbm, ⟨28, _⟩ => ⟨S32x8192, .f32⟩
  | .hbm, ⟨29, _⟩ => ⟨S32x8192, .f32⟩
  | _, _ => ⟨S32x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S8_S1x8x1_1 : S8.BroadcastsInDim S1x8x1 (![1] : Fin 1 → Fin S1x8x1.rank)
  bcast_S1024x8192_S1024x1x8192_0_2 : S1024x8192.BroadcastsInDim S1024x1x8192 (![0, 2] : Fin 2 → Fin S1024x1x8192.rank)
  bcast_S1024x1x8192_S1024x8x8192_0_1_2 : S1024x1x8192.BroadcastsInDim S1024x8x8192 (![0, 1, 2] : Fin 3 → Fin S1024x8x8192.rank)
  bcast_S1x8x1_S1024x8x8192_0_1_2 : S1x8x1.BroadcastsInDim S1024x8x8192 (![0, 1, 2] : Fin 3 → Fin S1024x8x8192.rank)
  bcast_S_S1024x8x8192 : S_.BroadcastsInDim S1024x8x8192 (![] : Fin 0 → Fin S1024x8x8192.rank)
  shapeCasts_S1024x8x8192_S8192x8192 : S1024x8x8192.ShapeCasts S8192x8192
  shapeCasts_S8192x8192_S64x128x8192 : S8192x8192.ShapeCasts S64x128x8192
  bcast_S_S64x128x8192 : S_.BroadcastsInDim S64x128x8192 (![] : Fin 0 → Fin S64x128x8192.rank)
  bcast_S64x8192_S64x1x8192_0_2 : S64x8192.BroadcastsInDim S64x1x8192 (![0, 2] : Fin 2 → Fin S64x1x8192.rank)
  bcast_S64x1x8192_S64x128x8192_0_1_2 : S64x1x8192.BroadcastsInDim S64x128x8192 (![0, 1, 2] : Fin 3 → Fin S64x128x8192.rank)
  shapeCasts_S64x128x8192_S8192x8192 : S64x128x8192.ShapeCasts S8192x8192
  bcast_S8192_S1x8192_1 : S8192.BroadcastsInDim S1x8192 (![1] : Fin 1 → Fin S1x8192.rank)
  bcast_S1x8192_S32x8192_0_1 : S1x8192.BroadcastsInDim S32x8192 (![0, 1] : Fin 2 → Fin S32x8192.rank)
  dot_S32x8192_S8192x8192_S32x8192_1_0_0_1_n_n_wf : DotDims.WF S32x8192 S8192x8192 S32x8192 [1] [0] [0] [1] [] []

variable [Facts₀]

def dot_S32x8192_S8192x8192_S32x8192_1_0_0_1_n_n : DotDims S32x8192 S8192x8192 S32x8192 where
  lhsContracting := [1]
  rhsContracting := [0]
  lhsNonContracting := [0]
  rhsNonContracting := [1]
  lhsBatch := []
  rhsBatch := []
  wf := dot_S32x8192_S8192x8192_S32x8192_1_0_0_1_n_n_wf

class Facts : Prop extends Facts₀ where

variable [Facts]
-- ==== Proof.AccRun.lean ====
/-
  What the kernel body leaves in its accumulator, as a term of the body's loads.  The body's inner
  loop runs two trips; trip k loads rows [128k, 128k+128) of the packed-weight block, rows [8k, 8k+8)
  of the scale block and columns [1024k, 1024k+1024) of the activation block, and stores over the
  whole accumulator the value `k0_pay2` of those three loads and of the accumulator as it found it.
  After the loop one more whole store puts `k0_pay3` (the zero-point correction) of the group-sum
  block, the whole scale block and the accumulator.  So the accumulator after the body is
      k0_pay3 ags sc (k0_pay2 q₁ s₁ a₁ (k0_pay2 q₀ s₀ a₀ acc₀))
  with acc₀ what the body found (zero at the first K-tile).
-/
import proofs.«422950_j68556267979256_3_alg».proof.Proof.KIFrame
import Idealize.ShloMosaic.Lib.Pipeline.Value

noncomputable section

namespace Cert.KernelIdeal.AccRun

open Cert.KernelIdeal Cert.KernelIdeal.Gen Cert.KernelIdeal.GenP Idealize.ShloMosaic Idealize.ShloMosaic.TcCoe Idealize.SL.Sem

variable {F : FTy → Type} [FloatOps F]

/-- The rectangle of a whole [32, 2048] block, as the body's stores and loads of the accumulator spell it. -/
abbrev Rw : Rect S32x2048 := Rect.unit (s := S32x2048) ![0, 0] S32x2048.size inb_S32x2048_S32x2048_0_0

theorem off_zero : (![0, 0] : Fin S32x2048.rank → Nat) = fun _ => 0 := by
  funext a; match a with | ⟨0, _⟩ => rfl | ⟨1, _⟩ => rfl

/-- The rows of the packed-weight block, of the scale block, and the columns of the activation block that trip `k` loads. -/
def qRows (x1 : Vec F S256x2048 .i32) (k : Fin k0_t1_loop.trips) : Vec F S128x2048 .i32 :=
  View.ld x1 (Rect.unit (s := S256x2048) (k0_off1 k) S128x2048.size (k0_off1_inb k))
def sRows (x2 : Vec F S16x2048 .f32) (k : Fin k0_t1_loop.trips) : Vec F S8x2048 .f32 :=
  View.ld x2 (Rect.unit (s := S16x2048) (k0_off2 k) S8x2048.size (k0_off2_inb k))
def aCols (x0 : Vec F S32x2048 .bf16) (k : Fin k0_t1_loop.trips) : Vec F S32x1024 .bf16 :=
  View.ld x0 (Rect.unit (s := S32x2048) (k0_off3 k) S32x1024.size (k0_off3_inb k))

/-- A load of the whole accumulator right after a whole store reads what was stored. -/
theorem readAt_whole_cons {sp : Space} (v : View sig .tc sp S32x2048 .f32) (f : v.ty.Contents (Elt F))
    (w : Vec F S32x2048 .f32) (L : List (View.Piece (Elt F) S32x2048 .f32)) :
    v.readAt (Elt F) Rw.toLoadRect (v.writes (Elt F) f (⟨Rw, w⟩ :: L)) = w := by
  funext x
  rw [View.readAt_eq_ld]
  exact View.read_writes_cons_emb v f Rw w L x

/-- A load of the whole accumulator held at the contents that read `X` reads `X`. -/
theorem readAt_whole_unread (arg8 : Memref sig .tc .vmem S32x2048 .f32) (harg8 : arg8.IsWhole) (X : Vec F S32x2048 .f32) :
    arg8.view.readAt (Elt F) Rw.toLoadRect (harg8.unread X) = X := by
  rw [View.readAt_eq_ld, harg8.read_unread, View.ld_unit_zero (S := S32x2048) off_zero]

/-- ONE TRIP's store, read off the trip's run: the whole accumulator, at `k0_pay2` of the trip's three loads and of
    the accumulator's contents as the trip finds them. -/
theorem trip_piece (𝒱 : Variants) (c : Dev nD) (bd : Option 𝒱.V) (i : grid0.Coords) (arg2 : Memref sig .tc .vmem S32x2048 .bf16) (harg2 : arg2.IsWhole) (arg3 : Memref sig .tc .vmem S256x2048 .i32) (harg3 : arg3.IsWhole) (arg4 : Memref sig .tc .vmem S16x2048 .f32) (harg4 : arg4.IsWhole) (arg5 : Memref sig .tc .vmem S16x32 .bf16) (harg5 : arg5.IsWhole) (arg6 : Memref sig .tc .vmem S1x2048 .f32) (harg6 : arg6.IsWhole) (arg7 : Memref sig .tc .vmem S32x2048 .f32) (harg7 : arg7.IsWhole) (arg8 : Memref sig .tc .vmem S32x2048 .f32) (harg8 : arg8.IsWhole)
    (X2 : BufTy.Contents (Elt F) arg2.view.ty) (X3 : BufTy.Contents (Elt F) arg3.view.ty) (X4 : BufTy.Contents (Elt F) arg4.view.ty)
    (k : Fin k0_t1_loop.trips) (f : BufTy.Contents (Elt F) arg8.view.ty) :
    tripL_k0_t1 (F := F) 𝒱 c bd i arg2 harg2 arg3 harg3 arg4 harg4 arg5 harg5 arg6 harg6 arg7 harg7 arg8 harg8 X2 X3 X4 k f
      = [⟨Rw, k0_pay2 (View.readAt (Elt F) arg3.view (Rect.unit (s := S256x2048) (k0_off1 k) S128x2048.size (k0_off1_inb k)).toLoadRect X3)
            (View.readAt (Elt F) arg4.view (Rect.unit (s := S16x2048) (k0_off2 k) S8x2048.size (k0_off2_inb k)).toLoadRect X4)
            (View.readAt (Elt F) arg2.view (Rect.unit (s := S32x2048) (k0_off3 k) S32x1024.size (k0_off3_inb k)).toLoadRect X2)
            (View.readAt (Elt F) arg8.view Rw.toLoadRect f)⟩] := by
  unfold tripL_k0_t1 trip_k0_t1
  rfl

/-- The loop runs two trips. -/
theorem trips_eq : k0_t1_loop.trips = 2 := by decide

theorem trip_lt (k : Fin k0_t1_loop.trips) : k.val < 2 := lt_of_lt_of_eq k.isLt trips_eq

/-- Its first and second trip. -/
def t0 : Fin k0_t1_loop.trips := ⟨0, by rw [trips_eq]; decide⟩
def t1 : Fin k0_t1_loop.trips := ⟨1, by rw [trips_eq]; decide⟩

/-- The whole-shape read of what a list headed by a whole store leaves is that store's payload. -/
theorem read_whole_cons {sp : Space} (v : View sig .tc sp S32x2048 .f32) (f : v.ty.Contents (Elt F))
    (w : Vec F S32x2048 .f32) (L : List (View.Piece (Elt F) S32x2048 .f32)) :
    v.read (Elt F) (v.writes (Elt F) f (⟨Rw, w⟩ :: L)) = w := by
  have h := readAt_whole_cons v f w L
  rwa [View.readAt_eq_ld, View.ld_unit_zero (S := S32x2048) off_zero] at h

/-- THE ACCUMULATOR AFTER THE LOOP, from contents `G` at loop entry: the second trip's value of its loads and of the
    first trip's value of its loads and of `G`. -/
theorem read_after_loop (𝒱 : Variants) (c : Dev nD) (bd : Option 𝒱.V) (i : grid0.Coords) (arg2 : Memref sig .tc .vmem S32x2048 .bf16) (harg2 : arg2.IsWhole) (arg3 : Memref sig .tc .vmem S256x2048 .i32) (harg3 : arg3.IsWhole) (arg4 : Memref sig .tc .vmem S16x2048 .f32) (harg4 : arg4.IsWhole) (arg5 : Memref sig .tc .vmem S16x32 .bf16) (harg5 : arg5.IsWhole) (arg6 : Memref sig .tc .vmem S1x2048 .f32) (harg6 : arg6.IsWhole) (arg7 : Memref sig .tc .vmem S32x2048 .f32) (harg7 : arg7.IsWhole) (arg8 : Memref sig .tc .vmem S32x2048 .f32) (harg8 : arg8.IsWhole)
    (X2 : BufTy.Contents (Elt F) arg2.view.ty) (X3 : BufTy.Contents (Elt F) arg3.view.ty) (X4 : BufTy.Contents (Elt F) arg4.view.ty)
    (G : BufTy.Contents (Elt F) arg8.view.ty) :
    arg8.view.readAt (Elt F) Rw.toLoadRect (arg8.view.writes (Elt F) G
        (pb_k0_t1 (F := F) 𝒱 c bd i arg2 harg2 arg3 harg3 arg4 harg4 arg5 harg5 arg6 harg6 arg7 harg7 arg8 harg8 X2 X3 X4 G (Scf.trips k0_t1_loop.lb k0_t1_loop.ub k0_t1_loop.st)))
      = k0_pay2 (View.readAt (Elt F) arg3.view (Rect.unit (s := S256x2048) (k0_off1 t1) S128x2048.size (k0_off1_inb t1)).toLoadRect X3)
          (View.readAt (Elt F) arg4.view (Rect.unit (s := S16x2048) (k0_off2 t1) S8x2048.size (k0_off2_inb t1)).toLoadRect X4)
          (View.readAt (Elt F) arg2.view (Rect.unit (s := S32x2048) (k0_off3 t1) S32x1024.size (k0_off3_inb t1)).toLoadRect X2)
          (k0_pay2 (View.readAt (Elt F) arg3.view (Rect.unit (s := S256x2048) (k0_off1 t0) S128x2048.size (k0_off1_inb t0)).toLoadRect X3)
            (View.readAt (Elt F) arg4.view (Rect.unit (s := S16x2048) (k0_off2 t0) S8x2048.size (k0_off2_inb t0)).toLoadRect X4)
            (View.readAt (Elt F) arg2.view (Rect.unit (s := S32x2048) (k0_off3 t0) S32x1024.size (k0_off3_inb t0)).toLoadRect X2)
            (View.readAt (Elt F) arg8.view Rw.toLoadRect G)) := by
  have e2 : Scf.trips k0_t1_loop.lb k0_t1_loop.ub k0_t1_loop.st = (t1 : Fin k0_t1_loop.trips).val + 1 := trips_eq
  rw [e2, pb_k0_t1_succ, show (t1 : Fin k0_t1_loop.trips).val = (t0 : Fin k0_t1_loop.trips).val + 1 from rfl, pb_k0_t1_succ]
  rw [show pb_k0_t1 (F := F) 𝒱 c bd i arg2 harg2 arg3 harg3 arg4 harg4 arg5 harg5 arg6 harg6 arg7 harg7 arg8 harg8 X2 X3 X4 G (t0 : Fin k0_t1_loop.trips).val = [] from rfl]
  rw [trip_piece, trip_piece]
  simp only [List.append_nil, List.cons_append, List.nil_append, View.writes_nil]
  rw [readAt_whole_cons, readAt_whole_cons]

theorem off_zero_16x32 : (![0, 0] : Fin S16x32.rank → Nat) = fun _ => 0 := by
  funext a; match a with | ⟨0, _⟩ => rfl | ⟨1, _⟩ => rfl
theorem off_zero_16x2048 : (![0, 0] : Fin S16x2048.rank → Nat) = fun _ => 0 := by
  funext a; match a with | ⟨0, _⟩ => rfl | ⟨1, _⟩ => rfl
theorem off_zero_1x2048 : (![0, 0] : Fin S1x2048.rank → Nat) = fun _ => 0 := by
  funext a; match a with | ⟨0, _⟩ => rfl | ⟨1, _⟩ => rfl

/-- At a K-tile that is neither the first nor the last the body leaves in the accumulator the correction `k0_pay3` of
    the group-sum block, the scale block and the two trips' value over what it found. -/
theorem sout_B (c : Dev nD) (i : grid0.Coords) (arg2 : Memref sig .tc .vmem S32x2048 .bf16) (harg2 : arg2.IsWhole) (arg3 : Memref sig .tc .vmem S256x2048 .i32) (harg3 : arg3.IsWhole) (arg4 : Memref sig .tc .vmem S16x2048 .f32) (harg4 : arg4.IsWhole) (arg5 : Memref sig .tc .vmem S16x32 .bf16) (harg5 : arg5.IsWhole) (arg6 : Memref sig .tc .vmem S1x2048 .f32) (harg6 : arg6.IsWhole) (arg7 : Memref sig .tc .vmem S32x2048 .f32) (harg7 : arg7.IsWhole) (arg8 : Memref sig .tc .vmem S32x2048 .f32) (harg8 : arg8.IsWhole) (hc0 : ¬cond0_0 i) (hc1 : ¬cond0_1 i)
    (x0 : Vec F S32x2048 .bf16) (x1 : Vec F S256x2048 .i32) (x2 : Vec F S16x2048 .f32) (x3 : Vec F S16x32 .bf16) (x4 : Vec F S1x2048 .f32) (xs0 : Vec F S32x2048 .f32) :
    sout0_B_0 (F := F) c i arg2 harg2 arg3 harg3 arg4 harg4 arg5 harg5 arg6 harg6 arg7 harg7 arg8 harg8 hc0 hc1 x0 x1 x2 x3 x4 xs0 = k0_pay3 x3 x2 (k0_pay2 (qRows x1 t1) (sRows x2 t1) (aCols x0 t1) (k0_pay2 (qRows x1 t0) (sRows x2 t0) (aCols x0 t0) xs0)) := by
  unfold sout0_B_0 kernelRun0_B
  dsimp only
  simp only [List.cons_append, List.nil_append]
  rw [read_whole_cons]
  unfold kernelRun0_B.sl.v12
  rw [read_after_loop]
  simp only [View.readAt_eq_ld, Memref.IsWhole.read_unread, View.ld_unit_zero (S := S32x2048) off_zero,
    View.ld_unit_zero (S := S16x32) off_zero_16x32, View.ld_unit_zero (S := S16x2048) off_zero_16x2048,
    View.ld_unit_zero (S := S1x2048) off_zero_1x2048]
  rfl

/-- At the last K-tile the accumulator ends the same way, -/
theorem sout_C (c : Dev nD) (i : grid0.Coords) (arg2 : Memref sig .tc .vmem S32x2048 .bf16) (harg2 : arg2.IsWhole) (arg3 : Memref sig .tc .vmem S256x2048 .i32) (harg3 : arg3.IsWhole) (arg4 : Memref sig .tc .vmem S16x2048 .f32) (harg4 : arg4.IsWhole) (arg5 : Memref sig .tc .vmem S16x32 .bf16) (harg5 : arg5.IsWhole) (arg6 : Memref sig .tc .vmem S1x2048 .f32) (harg6 : arg6.IsWhole) (arg7 : Memref sig .tc .vmem S32x2048 .f32) (harg7 : arg7.IsWhole) (arg8 : Memref sig .tc .vmem S32x2048 .f32) (harg8 : arg8.IsWhole) (hc0 : ¬cond0_0 i) (hc1 : cond0_1 i)
    (x0 : Vec F S32x2048 .bf16) (x1 : Vec F S256x2048 .i32) (x2 : Vec F S16x2048 .f32) (x3 : Vec F S16x32 .bf16) (x4 : Vec F S1x2048 .f32) (xs0 : Vec F S32x2048 .f32) :
    sout0_C_0 (F := F) c i arg2 harg2 arg3 harg3 arg4 harg4 arg5 harg5 arg6 harg6 arg7 harg7 arg8 harg8 hc0 hc1 x0 x1 x2 x3 x4 xs0 = k0_pay3 x3 x2 (k0_pay2 (qRows x1 t1) (sRows x2 t1) (aCols x0 t1) (k0_pay2 (qRows x1 t0) (sRows x2 t0) (aCols x0 t0) xs0)) := by
  unfold sout0_C_0 kernelRun0_C
  dsimp only
  simp only [List.cons_append, List.nil_append]
  rw [read_whole_cons]
  unfold kernelRun0_C.sl.v12
  rw [read_after_loop]
  simp only [View.readAt_eq_ld, Memref.IsWhole.read_unread, View.ld_unit_zero (S := S32x2048) off_zero,
    View.ld_unit_zero (S := S16x32) off_zero_16x32, View.ld_unit_zero (S := S16x2048) off_zero_16x2048,
    View.ld_unit_zero (S := S1x2048) off_zero_1x2048]
  rfl

/-- and at the first K-tile the same over the zero fill `k0_pay1` the body starts with. -/
theorem sout_A (c : Dev nD) (i : grid0.Coords) (arg2 : Memref sig .tc .vmem S32x2048 .bf16) (harg2 : arg2.IsWhole) (arg3 : Memref sig .tc .vmem S256x2048 .i32) (harg3 : arg3.IsWhole) (arg4 : Memref sig .tc .vmem S16x2048 .f32) (harg4 : arg4.IsWhole) (arg5 : Memref sig .tc .vmem S16x32 .bf16) (harg5 : arg5.IsWhole) (arg6 : Memref sig .tc .vmem S1x2048 .f32) (harg6 : arg6.IsWhole) (arg7 : Memref sig .tc .vmem S32x2048 .f32) (harg7 : arg7.IsWhole) (arg8 : Memref sig .tc .vmem S32x2048 .f32) (harg8 : arg8.IsWhole) (hc0 : cond0_0 i) (hc1 : ¬cond0_1 i)
    (x0 : Vec F S32x2048 .bf16) (x1 : Vec F S256x2048 .i32) (x2 : Vec F S16x2048 .f32) (x3 : Vec F S16x32 .bf16) (x4 : Vec F S1x2048 .f32) :
    sout0_A_0 (F := F) c i arg2 harg2 arg3 harg3 arg4 harg4 arg5 harg5 arg6 harg6 arg7 harg7 arg8 harg8 hc0 hc1 x0 x1 x2 x3 x4 = k0_pay3 x3 x2 (k0_pay2 (qRows x1 t1) (sRows x2 t1) (aCols x0 t1) (k0_pay2 (qRows x1 t0) (sRows x2 t0) (aCols x0 t0) (k0_pay1 (F := F)))) := by
  unfold sout0_A_0 kernelRun0_A
  dsimp only
  rw [read_whole_cons]
  unfold kernelRun0_A.sl.v12 kernelRun0_A.sl.HS0_1
  rw [View.writes_append, read_after_loop, readAt_whole_cons]
  simp only [View.readAt_eq_ld, Memref.IsWhole.read_unread, View.ld_unit_zero (S := S32x2048) off_zero,
    View.ld_unit_zero (S := S16x32) off_zero_16x32, View.ld_unit_zero (S := S16x2048) off_zero_16x2048,
    View.ld_unit_zero (S := S1x2048) off_zero_1x2048]
  rfl

/-- At the last K-tile the body stores into the output block the sum `k0_pay4` of the accumulator it has just
    finished and the bias block. -/
theorem out_C (c : Dev nD) (i : grid0.Coords) (arg2 : Memref sig .tc .vmem S32x2048 .bf16) (harg2 : arg2.IsWhole) (arg3 : Memref sig .tc .vmem S256x2048 .i32) (harg3 : arg3.IsWhole) (arg4 : Memref sig .tc .vmem S16x2048 .f32) (harg4 : arg4.IsWhole) (arg5 : Memref sig .tc .vmem S16x32 .bf16) (harg5 : arg5.IsWhole) (arg6 : Memref sig .tc .vmem S1x2048 .f32) (harg6 : arg6.IsWhole) (arg7 : Memref sig .tc .vmem S32x2048 .f32) (harg7 : arg7.IsWhole) (arg8 : Memref sig .tc .vmem S32x2048 .f32) (harg8 : arg8.IsWhole) (hc0 : ¬cond0_0 i) (hc1 : cond0_1 i)
    (x0 : Vec F S32x2048 .bf16) (x1 : Vec F S256x2048 .i32) (x2 : Vec F S16x2048 .f32) (x3 : Vec F S16x32 .bf16) (x4 : Vec F S1x2048 .f32) (xs0 : Vec F S32x2048 .f32) :
    out0_C_5 (F := F) c i arg2 harg2 arg3 harg3 arg4 harg4 arg5 harg5 arg6 harg6 arg7 harg7 arg8 harg8 hc0 hc1 x0 x1 x2 x3 x4 xs0
      = k0_pay4 (k0_pay3 x3 x2 (k0_pay2 (qRows x1 t1) (sRows x2 t1) (aCols x0 t1) (k0_pay2 (qRows x1 t0) (sRows x2 t0) (aCols x0 t0) xs0))) x4 := by
  unfold out0_C_5 kernelRun0_C
  dsimp only
  rw [read_whole_cons]
  unfold kernelRun0_C.sl.HS0_w1
  rw [← View.writes_singleton, ← View.writes_append]
  simp only [List.cons_append, List.nil_append]
  rw [readAt_whole_cons]
  unfold kernelRun0_C.sl.v12
  rw [read_after_loop]
  simp only [View.readAt_eq_ld, Memref.IsWhole.read_unread, View.ld_unit_zero (S := S32x2048) off_zero,
    View.ld_unit_zero (S := S16x32) off_zero_16x32, View.ld_unit_zero (S := S16x2048) off_zero_16x2048,
    View.ld_unit_zero (S := S1x2048) off_zero_1x2048]
  rfl

end Cert.KernelIdeal.AccRun

end
-- ==== Proof.TileAlgebra.lean ====
/-
  The arithmetic behind the equivalence, over the reals and for ONE output entry (a fixed row of the
  activations and a fixed output column).  Along the contracted axis k the reference adds
      α k * ((θ k - 8) * σ (k / 128))
  (α the activation, θ the 4-bit code, σ the scale of k's group of 128), while the kernel walks the
  axis in tiles of 2048: per tile it adds α k * (θ k * σ (k / 128)) over two halves of 1024 and then
  takes off 8 times the sum, over the tile's 16 groups, of the group's activation sum times the
  group's scale.  Distributivity in ℝ makes one tile's update the reference's terms of that tile.
-/
import Idealize.ShloMosaic.PureOps.Ideal.Laws
import Idealize.ShloMosaic.Lib.ValueIdx

namespace Cert.QuantGemm

open Finset

/-- A sum over `n * m` consecutive naturals, grouped in `n` runs of `m`. -/
theorem sum_range_mul {M : Type*} [AddCommMonoid M] (f : ℕ → M) (n m : ℕ) :
    ∑ x ∈ range (n * m), f x = ∑ g ∈ range n, ∑ l ∈ range m, f (g * m + l) := by
  induction n with
  | zero => simp
  | succ n ih => rw [Nat.succ_mul, sum_range_add, ih, sum_range_succ]

/-- The reference's term at position `k` of the contracted axis. -/
def term (α θ σ : ℕ → ℝ) (k : ℕ) : ℝ := α k * ((θ k - 8) * σ (k / 128))

/-- The reference's sum over the first `N` positions. -/
def prefixSum (α θ σ : ℕ → ℝ) (N : ℕ) : ℝ := ∑ k ∈ range N, term α θ σ k

/-- What the kernel does to its accumulator at the tile that starts at position `b = 2048 * kt`:
    two half-tile products, then the zero-point correction over the tile's 16 groups. -/
def tileStep (α θ σ : ℕ → ℝ) (kt : ℕ) (acc : ℝ) : ℝ :=
  ((acc + ∑ x ∈ range 1024, α (kt * 2048 + x) * (θ (kt * 2048 + x) * σ ((kt * 2048 + x) / 128)))
      + ∑ x ∈ range 1024, α (kt * 2048 + 1024 + x) * (θ (kt * 2048 + 1024 + x) * σ ((kt * 2048 + 1024 + x) / 128)))
    - 8 * ∑ g ∈ range 16, (∑ l ∈ range 128, α ((kt * 16 + g) * 128 + l)) * σ (kt * 16 + g)

/-- One tile's update of the accumulator adds exactly the reference's terms of that tile. -/
theorem tileStep_prefixSum (α θ σ : ℕ → ℝ) (kt : ℕ) :
    tileStep α θ σ kt (prefixSum α θ σ (kt * 2048)) = prefixSum α θ σ ((kt + 1) * 2048) := by
  unfold tileStep prefixSum
  rw [Nat.succ_mul, sum_range_add (fun k => term α θ σ k) (kt * 2048) 2048]
  have hmain : ∑ x ∈ range 2048, term α θ σ (kt * 2048 + x)
      = (∑ x ∈ range 2048, α (kt * 2048 + x) * (θ (kt * 2048 + x) * σ ((kt * 2048 + x) / 128)))
        - 8 * ∑ x ∈ range 2048, α (kt * 2048 + x) * σ ((kt * 2048 + x) / 128) := by
    rw [mul_sum, ← sum_sub_distrib]
    refine sum_congr rfl fun x _ => ?_
    unfold term; ring
  have hhalves : ∑ x ∈ range 2048, α (kt * 2048 + x) * (θ (kt * 2048 + x) * σ ((kt * 2048 + x) / 128))
      = (∑ x ∈ range 1024, α (kt * 2048 + x) * (θ (kt * 2048 + x) * σ ((kt * 2048 + x) / 128)))
        + ∑ x ∈ range 1024, α (kt * 2048 + 1024 + x) * (θ (kt * 2048 + 1024 + x) * σ ((kt * 2048 + 1024 + x) / 128)) := by
    rw [show (2048 : ℕ) = 1024 + 1024 from rfl, sum_range_add]
    refine congrArg _ (sum_congr rfl fun x _ => ?_)
    rw [Nat.add_assoc]
  have hgroups : ∑ x ∈ range 2048, α (kt * 2048 + x) * σ ((kt * 2048 + x) / 128)
      = ∑ g ∈ range 16, (∑ l ∈ range 128, α ((kt * 16 + g) * 128 + l)) * σ (kt * 16 + g) := by
    rw [show (2048 : ℕ) = 16 * 128 from rfl, sum_range_mul]
    refine sum_congr rfl fun g _ => ?_
    rw [sum_mul]
    refine sum_congr rfl fun l hl => ?_
    have hl' : l < 128 := mem_range.mp hl
    have e1 : kt * (16 * 128) + (g * 128 + l) = (kt * 16 + g) * 128 + l := by ring
    have e2 : ((kt * 16 + g) * 128 + l) / 128 = kt * 16 + g := by omega
    rw [e1, e2]
  rw [hmain, hhalves, hgroups]; ring

/-- Four tiles from zero give the reference's whole sum. -/
theorem four_tiles (α θ σ : ℕ → ℝ) :
    tileStep α θ σ 3 (tileStep α θ σ 2 (tileStep α θ σ 1 (tileStep α θ σ 0 0))) = prefixSum α θ σ 8192 := by
  have h0 : (0 : ℝ) = prefixSum α θ σ (0 * 2048) := by simp [prefixSum]
  rw [h0, tileStep_prefixSum, tileStep_prefixSum, tileStep_prefixSum, tileStep_prefixSum]

end Cert.QuantGemm
-- ==== Proof.Spec.lean ====
/-
  The result both programs compute, as one function of the four argument arrays, and the two facts
  that carry sums of extended reals whose entries are real onto the real arithmetic of TileAlgebra.
  Entry (m, n) of the result is
      Σ_{k < 8192} A[m,k] * ((code(k,n) - 8) * scales[k / 128, n])  +  bias[n],
  where code(k,n) is the 4-bit field number k % 8 of the packed word qweight[k / 8, n]: the word
  shifted right by 4 * (k % 8) and masked with 15.
-/
import Idealize.ShloMosaic.PureOps.Ideal.Laws
import Idealize.ShloMosaic.Lib.ValueIdx
import proofs.«422950_j68556267979256_3_alg».proof.Proof.TileAlgebra

noncomputable section

namespace Cert.QuantGemm

open Idealize.ShloMosaic Finset

abbrev SA : Shape := ⟨2, ![32, 8192]⟩
abbrev SQ : Shape := ⟨2, ![1024, 8192]⟩
abbrev SS : Shape := ⟨2, ![64, 8192]⟩
abbrev SB : Shape := ⟨1, ![8192]⟩

/-- Field number `p` of a packed word: shifted right by `4 * p` (arithmetically) and masked with 15. -/
def code (w : BitVec 32) (p : ℕ) : BitVec 32 :=
  IntOp.andi (IntOp.shrsi .host w (IntOp.muli 4#32 (BitVec.ofNat 32 p))) 15#32

/-- Row `m` of the activations along the contracted axis, as reals. -/
def act (A : SA.Idx → EReal) (m : Fin 32) (k : ℕ) : ℝ :=
  (A (ValueIdx.ix2 m ⟨k % 8192, Nat.mod_lt _ (by decide)⟩)).toReal

/-- Column `n` of the unpacked codes along the contracted axis, as reals. -/
def codeR (Q : SQ.Idx → BitVec 32) (n : Fin 8192) (k : ℕ) : ℝ :=
  ((code (Q (ValueIdx.ix2 ⟨k / 8 % 1024, Nat.mod_lt _ (by decide)⟩ n)) (k % 8)).toInt : ℝ)

/-- Column `n` of the scales along the group axis, as reals. -/
def scale (S : SS.Idx → EReal) (n : Fin 8192) (g : ℕ) : ℝ :=
  (S (ValueIdx.ix2 ⟨g % 64, Nat.mod_lt _ (by decide)⟩ n)).toReal

/-- THE RESULT: the reference's sum over the contracted axis, plus the bias. -/
def result (A : SA.Idx → EReal) (Q : SQ.Idx → BitVec 32) (S : SS.Idx → EReal) (B : SB.Idx → EReal) : SA.Idx → EReal :=
  fun i => ((prefixSum (act A (i 0)) (codeR Q (i 1)) (scale S (i 1)) 8192 : ℝ) : EReal) + B (ValueIdx.ix1 (i 1))

/-- A finite sum of reals, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- The f32 pattern of 8.0 denotes the real 8. -/
theorem ofBits_eight : Ideal.ofBits .f32 0x41000000#32 = ((8 : ℝ) : EReal) := by
  simp [Ideal.ofBits, Ideal.ieee, -EReal.coe_mul]; norm_num

/-- One K-tile's update of the accumulator, written over extended reals with real entries as the kernel computes it
    (two half-tile products added, then 8 times the sixteen group corrections taken off, each group's activation sum
    started from zero), is the real `tileStep`. -/
theorem tile_coe (α θ σ : ℕ → ℝ) (kt : ℕ) (r : ℝ) :
    (((r : EReal) + ∑ x : Fin 1024, (α (kt * 2048 + x) : EReal) * ((θ (kt * 2048 + x) : EReal) * (σ ((kt * 2048 + x) / 128) : EReal)))
        + ∑ x : Fin 1024, (α (kt * 2048 + 1024 + x) : EReal) * ((θ (kt * 2048 + 1024 + x) : EReal) * (σ ((kt * 2048 + 1024 + x) / 128) : EReal)))
      - ((8 : ℝ) : EReal) * ∑ g : Fin 16, ((0 : EReal) + ∑ l : Fin 128, (α ((kt * 16 + g) * 128 + l) : EReal)) * (σ (kt * 16 + g) : EReal)
      = ((tileStep α θ σ kt r : ℝ) : EReal) := by
  unfold tileStep
  simp only [zero_add, ← EReal.coe_mul, ← coe_sum, ← EReal.coe_add, ← EReal.coe_sub]
  simp only [Finset.sum_range]

/-- The reference's sum over extended reals with real entries is the real `prefixSum`. -/
theorem ref_coe_len (n : ℕ) (α θ σ : ℕ → ℝ) :
    ∑ k : Fin n, (α k : EReal) * ((((θ k : ℝ) : EReal) - ((8 : ℝ) : EReal)) * (σ (k / 128) : EReal))
      = ((prefixSum α θ σ n : ℝ) : EReal) := by
  unfold prefixSum term
  rw [Finset.sum_range, coe_sum]
  refine Finset.sum_congr rfl fun k _ => ?_
  rw [EReal.coe_mul, EReal.coe_mul, EReal.coe_sub]

theorem ref_coe (α θ σ : ℕ → ℝ) :
    ∑ k : Fin 8192, (α k : EReal) * ((((θ k : ℝ) : EReal) - ((8 : ℝ) : EReal)) * (σ (k / 128) : EReal))
      = ((prefixSum α θ σ 8192 : ℝ) : EReal) := ref_coe_len 8192 α θ σ

/-- A real activation is the real the specification reads. -/
theorem act_coe (A : SA.Idx → EReal) (hA : ∀ i, A i ≠ ⊤ ∧ A i ≠ ⊥) (m : Fin 32) (k : ℕ) (hk : k < 8192) :
    A (ValueIdx.ix2 m ⟨k, hk⟩) = ((act A m k : ℝ) : EReal) := by
  unfold act
  simp only [Nat.mod_eq_of_lt hk]
  exact (EReal.coe_toReal (hA _).1 (hA _).2).symm

/-- A real scale is the real the specification reads. -/
theorem scale_coe (S : SS.Idx → EReal) (hS : ∀ i, S i ≠ ⊤ ∧ S i ≠ ⊥) (n : Fin 8192) (g : ℕ) (hg : g < 64) :
    S (ValueIdx.ix2 ⟨g, hg⟩ n) = ((scale S n g : ℝ) : EReal) := by
  unfold scale
  simp only [Nat.mod_eq_of_lt hg]
  exact (EReal.coe_toReal (hS _).1 (hS _).2).symm

/-- The code of position `k`, read from packed row `k / 8`. -/
theorem codeR_eq (Q : SQ.Idx → BitVec 32) (n : Fin 8192) (k : ℕ) (hk : k < 8192) :
    ((code (Q (ValueIdx.ix2 ⟨k / 8, by omega⟩ n)) (k % 8)).toInt : ℝ) = codeR Q n k := by
  unfold codeR
  have e : k / 8 % 1024 = k / 8 := Nat.mod_eq_of_lt (by omega)
  simp only [e]

end Cert.QuantGemm

end
-- ==== Proof.LibPlainDot.lean ====
/- The plain product of an M×K matrix by a K×N matrix, read at an index of the result, at the ideal (extended-real)
   values: entry (r, c) is the sum over the contracted coordinate k of x[r, k] * w[k, c]. Stated for the reference's
   product with no accumulator and for the kernel's product accumulated into a zero array, which is the same sum
   because 0 + s = s. -/
import Idealize.ShloMosaic.Lib.StackMember

noncomputable section

open scoped BigOperators

namespace Cert.LibPlainDot

open Idealize.ShloMosaic

/-- The reference's plain product at an index: the sum over the contracted coordinate. -/
theorem dotGeneral_plain_apply (M K N : Nat) {φ₁ φ₂ : FTy} (prec : Option ContractPrecision)
    (x : FVec Ideal ⟨2, ![M, K]⟩ φ₁) (w : FVec Ideal ⟨2, ![K, N]⟩ φ₂) (j : (⟨2, ![M, N]⟩ : Shape).Idx) :
    Host.dotGeneral (DotDims.plain M K N) prec x w j = ∑ k : Fin K, x (ValueIdx.ix2 (j 0) k) * w (ValueIdx.ix2 k (j 1)) := by
  have e := StackMember.dotGeneral_plain_apply (m := M) (n := N) (k := K) prec x w (j 0) (j 1)
  exact (congrArg (Host.dotGeneral (DotDims.plain M K N) prec x w) (ValueIdx.eq_ix2 j)).trans e

/-- The kernel's product into a zero accumulator at an index: the same sum. -/
theorem matmul_zero_plain_apply {M K N : Nat} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (j : (⟨2, ![M, N]⟩ : Shape).Idx) :
    matmul d prec x w (constant ⟨2, ![M, N]⟩ .f32 0x00000000#32) j
      = ∑ k : Fin K, x (ValueIdx.ix2 (j 0) k) * w (ValueIdx.ix2 k (j 1)) := by
  subst hd
  rw [matmul_zero_eq_dotGeneral]
  exact dotGeneral_plain_apply M K N prec x w j

end Cert.LibPlainDot

end
-- ==== Proof.PayloadAt.lean ====
/-
  The body's four stored values, read at one entry (m, n) of the [32, 2048] block, at the ideal
  (extended-real) values.
    k0_pay1 : the zero fill, 0.
    k0_pay2 : acc[m,n] + Σ_{k<1024} a[m,k] * (code(q[k/8, n], k%8) * s[k/128, n])   — one half-tile of the product:
              row k of the unpacked weights is field k % 8 of packed row k / 8, times the scale of group k / 128.
    k0_pay3 : acc[m,n] - 8 * Σ_{g<16} ags[g,m] * s[g,n]                              — the zero-point correction.
    k0_pay4 : acc[m,n] + bias[0,n].
  The vector unit's arithmetic right shift is the host's for a shift amount 4 * p < 32, so the code read here is the
  specification's `code`.
-/
import proofs.«422950_j68556267979256_3_alg».proof.Proof.Gen.KernelIdeal.Skeleton
import proofs.«422950_j68556267979256_3_alg».proof.Proof.Spec
import proofs.«422950_j68556267979256_3_alg».proof.Proof.LibPlainDot
import Idealize.ShloMosaic.Lib.Pipeline.Value
import Idealize.ShloMosaic.Lib.ValueIdx
import Idealize.ShloMosaic.PureOps.Ideal.Laws

noncomputable section

namespace Cert.KernelIdeal.PayloadAt

open Cert.KernelIdeal Cert.KernelIdeal.Gen Idealize.ShloMosaic Idealize.ShloMosaic.ValueIdx Cert.QuantGemm

/-- Below the word's width the vector unit's arithmetic right shift is the host's. -/
theorem shrsi_vector_eq_host (x y : BitVec 32) (h : y.toNat < 32) : IntOp.shrsi .vector x y = IntOp.shrsi .host x y := by
  unfold IntOp.shrsi; rw [if_pos h, if_pos h]

theorem four_mul_lt (p : Fin 8) : (IntOp.muli 4#32 (BitVec.ofNat 32 p.val)).toNat < 32 := by
  revert p; decide

/-- The zero fill. -/
theorem pay1_apply (j : S32x2048.Idx) : k0_pay1 (F := Ideal) j = 0 := by
  unfold k0_pay1
  rw [shapeCast_self]
  show Ideal.ofBits .f32 0x00000000#32 = 0
  exact Ideal.ofBits_zero_f32

/-- Row `k` of the unpacked codes: field `k % 8` of packed row `k / 8`. -/
theorem codes_apply (v31 : Vec Ideal S128x2048 .i32) (kk : Fin 1024) (nn : Fin 2048) :
    (shapeCast S1024x2048 (andi (shrsi (broadcastTo S128x8x2048 (shapeCast S128x1x2048 v31 shapeCasts_S128x2048_S128x1x2048) broadcasts_S128x1x2048_S128x8x2048)
        (broadcastTo S128x8x2048 (muli (broadcast S1x8x1 4#32) (iota .tc S1x8x1 32 [1] iota_S1x8x1_d1_w32)) broadcasts_S1x8x1_S128x8x2048))
        (broadcast S128x8x2048 15#32)) shapeCasts_S128x8x2048_S1024x2048 : IVec S1024x2048 32) (ix2 kk nn)
      = code (v31 (ix2 ⟨kk.val / 8, by have := kk.isLt; omega⟩ nn)) (kk.val % 8) := by
  have hk := kk.isLt
  rw [shapeCast_apply _ _ (ix2 kk nn) (ix3 (⟨kk.val / 8, by omega⟩ : Fin 128) (⟨kk.val % 8, by omega⟩ : Fin 8) nn)
    (by rw [Shape.rowMajor_val_three, Shape.rowMajor_val_two]; show (kk.val / 8 * 8 + kk.val % 8) * 2048 + nn.val = kk.val * 2048 + nn.val; omega)]
  show IntOp.andi (IntOp.shrsi .vector _ _) 15#32 = _
  rw [broadcastTo_apply _ broadcasts_S128x1x2048_S128x8x2048 _ (ix3 (⟨kk.val / 8, by omega⟩ : Fin 128) (0 : Fin 1) nn)
      (by intro a; match a with | ⟨0, _⟩ => rfl | ⟨1, _⟩ => rfl | ⟨2, _⟩ => rfl),
    shapeCast_apply _ shapeCasts_S128x2048_S128x1x2048 _ (ix2 (⟨kk.val / 8, by omega⟩ : Fin 128) nn)
      (by rw [Shape.rowMajor_val_three, Shape.rowMajor_val_two]; show kk.val / 8 * 2048 + nn.val = (kk.val / 8 * 1 + 0) * 2048 + nn.val; omega),
    broadcastTo_apply _ broadcasts_S1x8x1_S128x8x2048 _ (ix3 (0 : Fin 1) (⟨kk.val % 8, by omega⟩ : Fin 8) (0 : Fin 1))
      (by intro a; match a with | ⟨0, _⟩ => rfl | ⟨1, _⟩ => rfl | ⟨2, _⟩ => rfl)]
  show IntOp.andi (IntOp.shrsi .vector _ (IntOp.muli 4#32 (iota .tc S1x8x1 32 [1] iota_S1x8x1_d1_w32 _))) 15#32 = _
  rw [iota_single_apply, shrsi_vector_eq_host _ _ (four_mul_lt ⟨kk.val % 8, by omega⟩)]
  rfl

/-- Row `k` of the dequantised-but-unshifted weights: the code as a number times the scale of the row's group of 128. -/
theorem weight_apply (cds : IVec S1024x2048 32) (v33 : Vec Ideal S8x2048 .f32) (kk : Fin 1024) (nn : Fin 2048) :
    (shapeCast S1024x2048 (mulf (shapeCast S8x128x2048 (sitofp (F := Ideal) .bf16 cds) shapeCasts_S1024x2048_S8x128x2048)
        (broadcastTo S8x128x2048 (shapeCast S8x1x2048 (truncf .bf16 v33 bitsLt_bf16_f32) shapeCasts_S8x2048_S8x1x2048) broadcasts_S8x1x2048_S8x128x2048))
        shapeCasts_S8x128x2048_S1024x2048 : FVec Ideal S1024x2048 .bf16) (ix2 kk nn)
      = (((cds (ix2 kk nn)).toInt : ℝ) : EReal) * v33 (ix2 ⟨kk.val / 128, by have := kk.isLt; omega⟩ nn) := by
  have hk := kk.isLt
  rw [shapeCast_apply _ _ (ix2 kk nn) (ix3 (⟨kk.val / 128, by omega⟩ : Fin 8) (⟨kk.val % 128, by omega⟩ : Fin 128) nn)
    (by rw [Shape.rowMajor_val_three, Shape.rowMajor_val_two]; show (kk.val / 128 * 128 + kk.val % 128) * 2048 + nn.val = kk.val * 2048 + nn.val; omega)]
  rw [mulf_apply]
  rw [shapeCast_apply _ shapeCasts_S1024x2048_S8x128x2048 _ (ix2 kk nn)
      (by rw [Shape.rowMajor_val_three, Shape.rowMajor_val_two]; show kk.val * 2048 + nn.val = (kk.val / 128 * 128 + kk.val % 128) * 2048 + nn.val; omega),
    broadcastTo_apply _ broadcasts_S8x1x2048_S8x128x2048 _ (ix3 (⟨kk.val / 128, by omega⟩ : Fin 8) (0 : Fin 1) nn)
      (by intro a; match a with | ⟨0, _⟩ => rfl | ⟨1, _⟩ => rfl | ⟨2, _⟩ => rfl),
    shapeCast_apply _ shapeCasts_S8x2048_S8x1x2048 _ (ix2 (⟨kk.val / 128, by omega⟩ : Fin 8) nn)
      (by rw [Shape.rowMajor_val_three, Shape.rowMajor_val_two]; show kk.val / 128 * 2048 + nn.val = (kk.val / 128 * 1 + 0) * 2048 + nn.val; omega)]
  rfl

/-- ONE HALF-TILE of the product, accumulated. -/
theorem pay2_apply (v31 : Vec Ideal S128x2048 .i32) (v33 : Vec Ideal S8x2048 .f32) (v49 : Vec Ideal S32x1024 .bf16)
    (v51 : Vec Ideal S32x2048 .f32) (m : Fin 32) (nn : Fin 2048) :
    k0_pay2 (F := Ideal) v31 v33 v49 v51 (ix2 m nn)
      = v51 (ix2 m nn) + ∑ kk : Fin 1024, v49 (ix2 m kk) *
          ((((code (v31 (ix2 ⟨kk.val / 8, by have := kk.isLt; omega⟩ nn)) (kk.val % 8)).toInt : ℝ) : EReal)
            * v33 (ix2 ⟨kk.val / 128, by have := kk.isLt; omega⟩ nn)) := by
  unfold k0_pay2
  rw [shapeCast_self, addf_apply, LibPlainDot.matmul_zero_plain_apply dot_S32x1024_S1024x2048_S32x2048_1_0_0_1_n_n rfl]
  refine congrArg _ (Finset.sum_congr rfl fun kk _ => ?_)
  rw [shapeCast_self, weight_apply, codes_apply]

theorem lhs_corr_0 (j : S32x2048.Idx) (q : dot_S16x32_S16x2048_S32x2048_0_0_1_1_n_n.contr.Idx) :
    (dot_S16x32_S16x2048_S32x2048_0_0_1_1_n_n.lhsIdx j q 0).val = (q ⟨0, by decide⟩).val :=
  dot_S16x32_S16x2048_S32x2048_0_0_1_1_n_n.lhsIdx_val_of_single rfl j q
theorem lhs_corr_1 (j : S32x2048.Idx) (q : dot_S16x32_S16x2048_S32x2048_0_0_1_1_n_n.contr.Idx) :
    (dot_S16x32_S16x2048_S32x2048_0_0_1_1_n_n.lhsIdx j q 1).val = (j 0).val := by
  unfold DotDims.lhsIdx
  rw [dif_neg (show ¬(1 : Fin S16x32.rank) ∈ dot_S16x32_S16x2048_S32x2048_0_0_1_1_n_n.lhsBatch by decide), dif_pos (show (1 : Fin S16x32.rank) ∈ dot_S16x32_S16x2048_S32x2048_0_0_1_1_n_n.lhsNonContracting by decide)]
  rfl
theorem rhs_corr_0 (j : S32x2048.Idx) (q : dot_S16x32_S16x2048_S32x2048_0_0_1_1_n_n.contr.Idx) :
    (dot_S16x32_S16x2048_S32x2048_0_0_1_1_n_n.rhsIdx j q 0).val = (q ⟨0, by decide⟩).val :=
  dot_S16x32_S16x2048_S32x2048_0_0_1_1_n_n.rhsIdx_val_of_single rfl j q
theorem rhs_corr_1 (j : S32x2048.Idx) (q : dot_S16x32_S16x2048_S32x2048_0_0_1_1_n_n.contr.Idx) :
    (dot_S16x32_S16x2048_S32x2048_0_0_1_1_n_n.rhsIdx j q 1).val = (j 1).val := by
  unfold DotDims.rhsIdx
  rw [dif_neg (show ¬(1 : Fin S16x2048.rank) ∈ dot_S16x32_S16x2048_S32x2048_0_0_1_1_n_n.rhsBatch by decide), dif_pos (show (1 : Fin S16x2048.rank) ∈ dot_S16x32_S16x2048_S32x2048_0_0_1_1_n_n.rhsNonContracting by decide)]
  rfl

/-- THE ZERO-POINT CORRECTION: the accumulator less 8 times the product, over the tile's 16 groups, of the groups'
    activation sums and the groups' scales. -/
theorem pay3_apply (v7 : Vec Ideal S16x32 .bf16) (v9 : Vec Ideal S16x2048 .f32) (v12 : Vec Ideal S32x2048 .f32)
    (m : Fin 32) (nn : Fin 2048) :
    k0_pay3 (F := Ideal) v7 v9 v12 (ix2 m nn)
      = v12 (ix2 m nn) - Ideal.ofBits .f32 0x41000000#32 * ∑ g : Fin 16, v7 (ix2 g m) * v9 (ix2 g nn) := by
  unfold k0_pay3
  rw [shapeCast_self, shapeCast_self, subf_apply, mulf_apply, broadcast_apply]
  refine congrArg (fun z => v12 (ix2 m nn) - Ideal.ofBits .f32 0x41000000#32 * z) ?_
  simp only [matmul]
  rw [Ideal.matmul_constant_zero_apply, ← Equiv.sum_comp (ValueIdx.contrEquiv1 dot_S16x32_S16x2048_S32x2048_0_0_1_1_n_n 16 rfl rfl).symm]
  refine Finset.sum_congr rfl fun g _ => ?_
  have hg := ValueIdx.contrEquiv1_symm_val dot_S16x32_S16x2048_S32x2048_0_0_1_1_n_n 16 rfl rfl g
  have el : dot_S16x32_S16x2048_S32x2048_0_0_1_1_n_n.lhsIdx (ix2 m nn) ((ValueIdx.contrEquiv1 dot_S16x32_S16x2048_S32x2048_0_0_1_1_n_n 16 rfl rfl).symm g) = ix2 g m := funext fun a => Fin.ext (by
    match a with
    | ⟨0, _⟩ => exact (lhs_corr_0 _ _).trans hg
    | ⟨1, _⟩ => exact lhs_corr_1 _ _)
  have er : dot_S16x32_S16x2048_S32x2048_0_0_1_1_n_n.rhsIdx (ix2 m nn) ((ValueIdx.contrEquiv1 dot_S16x32_S16x2048_S32x2048_0_0_1_1_n_n 16 rfl rfl).symm g) = ix2 g nn := funext fun a => Fin.ext (by
    match a with
    | ⟨0, _⟩ => exact (rhs_corr_0 _ _).trans hg
    | ⟨1, _⟩ => exact rhs_corr_1 _ _)
  rw [el, er]
  rfl

/-- THE OUTPUT BLOCK: the finished accumulator plus the bias row. -/
theorem pay4_apply (v22 : Vec Ideal S32x2048 .f32) (v23 : Vec Ideal S1x2048 .f32) (m : Fin 32) (nn : Fin 2048) :
    k0_pay4 (F := Ideal) v22 v23 (ix2 m nn) = v22 (ix2 m nn) + v23 (ix2 (0 : Fin 1) nn) := by
  unfold k0_pay4
  rw [addf_apply, shapeCast_self,
    broadcastTo_apply _ broadcasts_S1x2048_S32x2048 _ (ix2 (0 : Fin 1) nn)
      (by intro a; match a with | ⟨0, _⟩ => rfl | ⟨1, _⟩ => rfl)]

end Cert.KernelIdeal.PayloadAt

end
-- ==== Proof.Blocks.lean ====
/-
  The windows' blocks at a grid point, read from the argument arrays.  The grid is 4 × 4; point t has
  column tile j = t / 4 and K-tile kt = t % 4.  At that point
    the activation block  is columns [2048 kt, 2048 kt + 2048) of A (the host's change of format is the identity),
    the packed-weight block is rows [256 kt, +256), columns [2048 j, +2048) of qweight,
    the scale block        is rows [16 kt, +16),  columns [2048 j, +2048) of scales,
    the group-sum block    is rows [16 kt, +16) of the transposed group sums: entry (g, m) is the sum of the 128
                           activations of row m in group 16 kt + g (the host's reduce starts from 0),
    the bias block         is columns [2048 j, +2048) of the bias, as one row.
-/
import proofs.«422950_j68556267979256_3_alg».proof.Proof.KIFrame
import proofs.«422950_j68556267979256_3_alg».proof.Proof.AccRun
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.Blocks

open Cert.KernelIdeal Cert.KernelIdeal.Gen Cert.KernelIdeal.GenP Idealize.ShloMosaic Idealize.ShloMosaic.TcCoe Idealize.SL.Sem
open Idealize.ShloMosaic.ValueIdx

variable (m : (ℓ : Loc nD τ sig) → Buf (Elt Ideal) ℓ)

/-- The four argument arrays on core `c`. -/
abbrev argA (c : Dev nD) : S32x8192.Idx → EReal := m ((c : Thread nD τ).loc main_arg0)
abbrev argQ (c : Dev nD) : S1024x8192.Idx → BitVec 32 := m ((c : Thread nD τ).loc main_arg1)
abbrev argS (c : Dev nD) : S64x8192.Idx → EReal := m ((c : Thread nD τ).loc main_arg2)
abbrev argB (c : Dev nD) : S8192.Idx → EReal := m ((c : Thread nD τ).loc main_arg3)

/-- The five input blocks at point `t`, at their literal types. -/
abbrev aBlk (c : Dev nD) (t : Fin cfg0.N) : Vec Ideal S32x2048 .bf16 := iblk m c 0 t
abbrev qBlk (c : Dev nD) (t : Fin cfg0.N) : Vec Ideal S256x2048 .i32 := iblk m c 1 t
abbrev sBlk (c : Dev nD) (t : Fin cfg0.N) : Vec Ideal S16x2048 .f32 := iblk m c 2 t
abbrev gBlk (c : Dev nD) (t : Fin cfg0.N) : Vec Ideal S16x32 .bf16 := iblk m c 3 t
abbrev bBlk (c : Dev nD) (t : Fin cfg0.N) : Vec Ideal S1x2048 .f32 := iblk m c 4 t

/-- The printed index maps over the grid: the column tile is `t / 4`, the K-tile `t % 4`. -/
theorem idx_facts : ∀ t : Fin cfg0.N,
    win0_0.index t (0 : Fin 2) = 0 ∧ win0_0.index t (1 : Fin 2) = t.val % 4
    ∧ win0_1.index t (0 : Fin 2) = t.val % 4 ∧ win0_1.index t (1 : Fin 2) = t.val / 4
    ∧ win0_2.index t (0 : Fin 2) = t.val % 4 ∧ win0_2.index t (1 : Fin 2) = t.val / 4
    ∧ win0_3.index t (0 : Fin 2) = t.val % 4 ∧ win0_3.index t (1 : Fin 2) = 0
    ∧ win0_4.index t (0 : Fin 2) = 0 ∧ win0_4.index t (1 : Fin 2) = t.val / 4
    ∧ win0_5.index t (0 : Fin 2) = 0 ∧ win0_5.index t (1 : Fin 2) = t.val / 4 :=
  (by decide +kernel : ∀ t : Fin grid0.N, _)

/-- What the host operations before the call leave in the arrays the windows stage. -/
theorem V_v1 (c : Dev nD) : (V m c main_v1 : S32x8192.Idx → EReal) = truncf (F := Ideal) .bf16 (argA m c) bitsLt_bf16_f32 := by
  dsimp only [V, hostOps0]; after_results; try rfl
theorem V_v0 (c : Dev nD) : (V m c main_v0 : S1x8192.Idx → EReal) = shapeCast S1x8192 (argB m c) shapeCasts_S8192_S1x8192 := by
  dsimp only [V, hostOps0]; after_results; try rfl
theorem V_v5 (c : Dev nD) : (V m c main_v5 : S64x32.Idx → EReal)
    = truncf (F := Ideal) .bf16 (transpose S64x32 [1, 0] (Host.reduceAdd (F := Ideal) (shapeCast S32x64x128 (argA m c) shapeCasts_S32x8192_S32x64x128)
        (constant (F := Ideal) S_ .f32 0x00000000#32) reducesTo_S32x64x128_S32x64_d2 h_S_) transposes_S32x64_S64x32_1_0) bitsLt_bf16_f32 := by
  dsimp only [V, hostOps0]; after_results; try rfl

open Cert.KernelIdeal.AccRun in
/-- The columns of an activation block that trip `k` loads: columns [1024 k, 1024 k + 1024). -/
theorem aCols_apply (x0 : Vec Ideal S32x2048 .bf16) (k : Fin k0_t1_loop.trips) (mm : Fin 32) (kk : Fin 1024) :
    AccRun.aCols x0 k (ix2 mm kk) = x0 (ix2 mm ⟨1024 * k.val + kk.val, by have := AccRun.trip_lt k; omega⟩) := by
  unfold AccRun.aCols
  show x0 ((Rect.unit (s := S32x2048) (k0_off3 k) S32x1024.size (k0_off3_inb k)).idx (ix2 mm kk)) = _
  refine congrArg x0 (funext fun a => Fin.ext ?_)
  have e := k0_off3_eq k
  match a with
  | ⟨0, _⟩ => show (k0_off3 k) 0 + 1 * mm.val = mm.val; rw [e]; show 0 + 1 * mm.val = mm.val; omega
  | ⟨1, _⟩ => show (k0_off3 k) 1 + 1 * kk.val = 1024 * k.val + kk.val; rw [e]; show 1024 * k.val + 1 * kk.val = _; omega

/-- The rows of a packed-weight block that trip `k` loads: rows [128 k, 128 k + 128). -/
theorem qRows_apply (x1 : Vec Ideal S256x2048 .i32) (k : Fin k0_t1_loop.trips) (r : Fin 128) (nn : Fin 2048) :
    AccRun.qRows x1 k (ix2 r nn) = x1 (ix2 ⟨128 * k.val + r.val, by have := AccRun.trip_lt k; omega⟩ nn) := by
  unfold AccRun.qRows
  show x1 ((Rect.unit (s := S256x2048) (k0_off1 k) S128x2048.size (k0_off1_inb k)).idx (ix2 r nn)) = _
  refine congrArg x1 (funext fun a => Fin.ext ?_)
  have e := k0_off1_eq k
  match a with
  | ⟨0, _⟩ => show (k0_off1 k) 0 + 1 * r.val = 128 * k.val + r.val; rw [e]; show 128 * k.val + 1 * r.val = _; omega
  | ⟨1, _⟩ => show (k0_off1 k) 1 + 1 * nn.val = nn.val; rw [e]; show 0 + 1 * nn.val = nn.val; omega

/-- The rows of a scale block that trip `k` loads: rows [8 k, 8 k + 8). -/
theorem sRows_apply (x2 : Vec Ideal S16x2048 .f32) (k : Fin k0_t1_loop.trips) (g : Fin 8) (nn : Fin 2048) :
    AccRun.sRows x2 k (ix2 g nn) = x2 (ix2 ⟨8 * k.val + g.val, by have := AccRun.trip_lt k; omega⟩ nn) := by
  unfold AccRun.sRows
  show x2 ((Rect.unit (s := S16x2048) (k0_off2 k) S8x2048.size (k0_off2_inb k)).idx (ix2 g nn)) = _
  refine congrArg x2 (funext fun a => Fin.ext ?_)
  have e := k0_off2_eq k
  match a with
  | ⟨0, _⟩ => show (k0_off2 k) 0 + 1 * g.val = 8 * k.val + g.val; rw [e]; show 8 * k.val + 1 * g.val = _; omega
  | ⟨1, _⟩ => show (k0_off2 k) 1 + 1 * nn.val = nn.val; rw [e]; show 0 + 1 * nn.val = nn.val; omega

theorem N16 (t : Fin cfg0.N) : t.val < 16 := lt_of_lt_of_eq t.isLt (show cfg0.N = 16 from N_0)

/-- The activation block at point `t`. -/
theorem aBlk_apply (c : Dev nD) (t : Fin cfg0.N) (mm : Fin 32) (x : Fin 2048) :
    aBlk m c t (ix2 mm x) = argA m c (ix2 mm ⟨t.val % 4 * 2048 + x.val, by omega⟩) := by
  obtain ⟨e00, e01, -⟩ := idx_facts t
  show V m c main_v1 (((cfg0.win 0).blk t).view.emb (ix2 mm x)) = _
  rw [V_v1, truncf_apply]
  refine congrArg (argA m c) (funext fun a => Fin.ext ?_)
  match a with
  | ⟨0, _⟩ => show win0_0.index t (0 : Fin 2) * 32 + 1 * mm.val = mm.val; omega
  | ⟨1, _⟩ => show win0_0.index t (1 : Fin 2) * 2048 + 1 * x.val = t.val % 4 * 2048 + x.val; omega

/-- The packed-weight block at point `t`. -/
theorem qBlk_apply (c : Dev nD) (t : Fin cfg0.N) (r : Fin 256) (nn : Fin 2048) :
    qBlk m c t (ix2 r nn) = argQ m c (ix2 ⟨t.val % 4 * 256 + r.val, by omega⟩ ⟨t.val / 4 * 2048 + nn.val, by have := N16 t; omega⟩) := by
  obtain ⟨-, -, e10, e11, -⟩ := idx_facts t
  show V m c main_arg1 (((cfg0.win 1).blk t).view.emb (ix2 r nn)) = _
  rw [V_main_arg1]
  refine congrArg (argQ m c) (funext fun a => Fin.ext ?_)
  match a with
  | ⟨0, _⟩ => show win0_1.index t (0 : Fin 2) * 256 + 1 * r.val = t.val % 4 * 256 + r.val; omega
  | ⟨1, _⟩ => show win0_1.index t (1 : Fin 2) * 2048 + 1 * nn.val = t.val / 4 * 2048 + nn.val; omega

/-- The scale block at point `t`. -/
theorem sBlk_apply (c : Dev nD) (t : Fin cfg0.N) (g : Fin 16) (nn : Fin 2048) :
    sBlk m c t (ix2 g nn) = argS m c (ix2 ⟨t.val % 4 * 16 + g.val, by omega⟩ ⟨t.val / 4 * 2048 + nn.val, by have := N16 t; omega⟩) := by
  obtain ⟨-, -, -, -, e20, e21, -⟩ := idx_facts t
  show V m c main_arg2 (((cfg0.win 2).blk t).view.emb (ix2 g nn)) = _
  rw [V_main_arg2]
  refine congrArg (argS m c) (funext fun a => Fin.ext ?_)
  match a with
  | ⟨0, _⟩ => show win0_2.index t (0 : Fin 2) * 16 + 1 * g.val = t.val % 4 * 16 + g.val; omega
  | ⟨1, _⟩ => show win0_2.index t (1 : Fin 2) * 2048 + 1 * nn.val = t.val / 4 * 2048 + nn.val; omega

/-- The bias block at point `t`. -/
theorem bBlk_apply (c : Dev nD) (t : Fin cfg0.N) (nn : Fin 2048) :
    bBlk m c t (ix2 (0 : Fin 1) nn) = argB m c (ix1 ⟨t.val / 4 * 2048 + nn.val, by have := N16 t; omega⟩) := by
  obtain ⟨-, -, -, -, -, -, -, -, e40, e41, -⟩ := idx_facts t
  show V m c main_v0 (((cfg0.win 4).blk t).view.emb (ix2 (0 : Fin 1) nn)) = _
  rw [V_v0]
  refine shapeCast_apply _ _ _ _ ?_
  rw [Shape.rowMajor_val_one, Shape.rowMajor_val_two]
  show t.val / 4 * 2048 + nn.val = (win0_4.index t (0 : Fin 2) * 1 + 1 * 0) * 8192 + (win0_4.index t (1 : Fin 2) * 2048 + 1 * nn.val)
  omega

/-- The group-sum block at point `t`: entry (g, m) is the host's sum, from zero, of the 128 activations of row `m` in
    group `16 (t % 4) + g`. -/
theorem gBlk_apply (c : Dev nD) (t : Fin cfg0.N) (g : Fin 16) (mm : Fin 32) :
    gBlk m c t (ix2 g mm)
      = 0 + ∑ l : Fin 128, argA m c (ix2 mm ⟨(t.val % 4 * 16 + g.val) * 128 + l.val, by omega⟩) := by
  obtain ⟨-, -, -, -, -, -, e30, e31, -⟩ := idx_facts t
  show V m c main_v5 (((cfg0.win 3).blk t).view.emb (ix2 g mm)) = _
  rw [V_v5, truncf_apply]
  have hidx : ((cfg0.win 3).blk t).view.emb (ix2 g mm) = ix2 (⟨t.val % 4 * 16 + g.val, by omega⟩ : Fin 64) mm := by
    funext a; apply Fin.ext
    match a with
    | ⟨0, _⟩ => show win0_3.index t (0 : Fin 2) * 16 + 1 * g.val = t.val % 4 * 16 + g.val; omega
    | ⟨1, _⟩ => show win0_3.index t (1 : Fin 2) * 32 + 1 * mm.val = mm.val; omega
  rw [hidx, transpose_apply _ _ transposes_S32x64_S64x32_1_0 _ (ix2 mm (⟨t.val % 4 * 16 + g.val, by omega⟩ : Fin 64))
    (by intro b; match b with | ⟨0, _⟩ => rfl | ⟨1, _⟩ => rfl)]
  have hr : S32x64x128.Reduces [2] S32x64 := by decide
  show Ideal.hostReduceAdd reducesTo_S32x64x128_S32x64_d2 _ _ _ = _
  rw [Ideal.hostReduceAdd_single reducesTo_S32x64x128_S32x64_d2 hr]
  refine congrArg₂ (· + ·) Ideal.ofBits_zero_f32 (Finset.sum_congr rfl fun l _ => ?_)
  refine shapeCast_apply _ _ _ _ ?_
  rw [Shape.rowMajor_val_two, Shape.rowMajor_val_three]
  show mm.val * 8192 + ((t.val % 4 * 16 + g.val) * 128 + l.val) = (mm.val * 64 + (t.val % 4 * 16 + g.val)) * 128 + l.val
  omega

end Cert.KernelIdeal.Blocks

end
-- ==== Proof.Accum.lean ====
/-
  The accumulator point by point.  Fix a core, a row m of the activations and a column n of the output;
  write α k = A[m,k], θ k = code(k,n), σ g = scales[g,n] (real by the precondition).  At grid point t (column
  tile t / 4, K-tile t % 4) the body turns an accumulator entry r into `tileStep α θ σ (t % 4) r`: its loads are
  the entries of A, qweight and scales that the tile's positions 2048 (t % 4) + x name.  Starting from the zero fill at
  t % 4 = 0, after point t the entry is the reference's sum over the first 2048 (t % 4 + 1) positions.
-/
import proofs.«422950_j68556267979256_3_alg».proof.Proof.AccRun
import proofs.«422950_j68556267979256_3_alg».proof.Proof.PayloadAt
import proofs.«422950_j68556267979256_3_alg».proof.Proof.Blocks
import proofs.«422950_j68556267979256_3_alg».proof.Proof.Spec

noncomputable section

namespace Cert.KernelIdeal.Accum

open Cert.KernelIdeal Cert.KernelIdeal.Gen Cert.KernelIdeal.GenP Idealize.ShloMosaic Idealize.ShloMosaic.TcCoe Idealize.SL.Sem
open Idealize.ShloMosaic.ValueIdx Cert.QuantGemm Cert.KernelIdeal.Blocks Cert.KernelIdeal.AccRun Cert.KernelIdeal.PayloadAt

variable (m : (ℓ : Loc nD τ sig) → Buf (Elt Ideal) ℓ) (c : Dev nD)

/-- The array column under local column `nn` of the blocks of point `t`. -/
def col (t : Fin cfg0.N) (nn : Fin 2048) : Fin 8192 := ⟨t.val / 4 * 2048 + nn.val, by have := N16 t; omega⟩

theorem t0_val : (t0 : Fin k0_t1_loop.trips).val = 0 := rfl
theorem t1_val : (t1 : Fin k0_t1_loop.trips).val = 1 := rfl

section Entries

variable (hA : ∀ i, argA m c i ≠ ⊤ ∧ argA m c i ≠ ⊥) (hS : ∀ i, argS m c i ≠ ⊤ ∧ argS m c i ≠ ⊥)
include hA hS

/-- An activation is the real the specification reads. -/
theorem A_coe (mm : Fin 32) (k : ℕ) (hk : k < 8192) : argA m c (ix2 mm ⟨k, hk⟩) = ((act (argA m c) mm k : ℝ) : EReal) := by
  unfold act
  simp only [Nat.mod_eq_of_lt hk]
  exact (EReal.coe_toReal (hA _).1 (hA _).2).symm

/-- A scale is the real the specification reads. -/
theorem S_coe (n : Fin 8192) (g : ℕ) (hg : g < 64) : argS m c (ix2 ⟨g, hg⟩ n) = ((scale (argS m c) n g : ℝ) : EReal) := by
  unfold scale
  simp only [Nat.mod_eq_of_lt hg]
  exact (EReal.coe_toReal (hS _).1 (hS _).2).symm

/-- The activation trip `k` multiplies at its position `kk` is A at position `K = 2048 (t % 4) + 1024 k + kk`. -/
theorem a_entry (t : Fin cfg0.N) (k : Fin k0_t1_loop.trips) (mm : Fin 32) (kk : Fin 1024) (K : ℕ)
    (hK : K = t.val % 4 * 2048 + 1024 * k.val + kk.val) :
    aCols (aBlk m c t) k (ix2 mm kk) = ((act (argA m c) mm K : ℝ) : EReal) := by
  have hk2 : k.val < 2 := trip_lt k
  rw [aCols_apply, aBlk_apply, A_coe m c hA hS]
  exact congrArg (fun z => ((act (argA m c) mm z : ℝ) : EReal)) (by subst hK; show t.val % 4 * 2048 + (1024 * k.val + kk.val) = _; omega)

/-- The code trip `k` unpacks at its position `kk` is the specification's code at position `K`. -/
theorem q_entry (t : Fin cfg0.N) (k : Fin k0_t1_loop.trips) (nn : Fin 2048) (kk : Fin 1024) (K : ℕ)
    (hK : K = t.val % 4 * 2048 + 1024 * k.val + kk.val) :
    ((code (qRows (qBlk m c t) k (ix2 ⟨kk.val / 8, by have := kk.isLt; omega⟩ nn)) (kk.val % 8)).toInt : ℝ)
      = codeR (argQ m c) (col t nn) K := by
  have hk2 : k.val < 2 := trip_lt k
  have hkk := kk.isLt
  rw [qRows_apply, qBlk_apply]
  unfold codeR
  have e1 : K / 8 % 1024 = t.val % 4 * 256 + (128 * k.val + kk.val / 8) := by subst hK; omega
  have e2 : K % 8 = kk.val % 8 := by subst hK; omega
  simp only [e1, e2]
  rfl

/-- The scale trip `k` multiplies at its position `kk` is the scale of position `K`'s group. -/
theorem s_entry (t : Fin cfg0.N) (k : Fin k0_t1_loop.trips) (nn : Fin 2048) (kk : Fin 1024) (K : ℕ)
    (hK : K = t.val % 4 * 2048 + 1024 * k.val + kk.val) :
    sRows (sBlk m c t) k (ix2 ⟨kk.val / 128, by have := kk.isLt; omega⟩ nn) = ((scale (argS m c) (col t nn) (K / 128) : ℝ) : EReal) := by
  have hk2 : k.val < 2 := trip_lt k
  have hkk := kk.isLt
  rw [sRows_apply, sBlk_apply]
  refine (S_coe m c hA hS (col t nn) _ _).trans ?_
  exact congrArg (fun z => ((scale (argS m c) (col t nn) z : ℝ) : EReal)) (by subst hK; show t.val % 4 * 16 + (8 * k.val + kk.val / 128) = _; omega)

/-- A group's activation sum, from zero, over the specification's reals. -/
theorem g_entry (t : Fin cfg0.N) (g : Fin 16) (mm : Fin 32) :
    gBlk m c t (ix2 g mm) = (0 : EReal) + ∑ l : Fin 128, ((act (argA m c) mm ((t.val % 4 * 16 + g.val) * 128 + l.val) : ℝ) : EReal) := by
  rw [gBlk_apply]
  exact congrArg _ (Finset.sum_congr rfl fun l _ => A_coe m c hA hS mm _ _)

/-- A group's scale. -/
theorem sg_entry (t : Fin cfg0.N) (g : Fin 16) (nn : Fin 2048) :
    sBlk m c t (ix2 g nn) = ((scale (argS m c) (col t nn) (t.val % 4 * 16 + g.val) : ℝ) : EReal) := by
  rw [sBlk_apply]
  exact S_coe m c hA hS (col t nn) _ _

/-- ONE TILE: the body's value over an accumulator whose entry is the real `r` has the entry `tileStep … r`. -/
theorem tile_value (t : Fin cfg0.N) (mm : Fin 32) (nn : Fin 2048) (acc : Vec Ideal S32x2048 .f32) (r : ℝ)
    (hacc : acc (ix2 mm nn) = ((r : ℝ) : EReal)) :
    (k0_pay3 (F := Ideal) (gBlk m c t) (sBlk m c t)
      (k0_pay2 (qRows (qBlk m c t) t1) (sRows (sBlk m c t) t1) (aCols (aBlk m c t) t1)
        (k0_pay2 (qRows (qBlk m c t) t0) (sRows (sBlk m c t) t0) (aCols (aBlk m c t) t0) acc))) (ix2 mm nn)
      = ((tileStep (act (argA m c) mm) (codeR (argQ m c) (col t nn)) (scale (argS m c) (col t nn)) (t.val % 4) r : ℝ) : EReal) := by
  rw [pay3_apply, pay2_apply, pay2_apply, hacc, ofBits_eight, ← tile_coe]
  refine congrArg₂ (· - ·) (congrArg₂ (· + ·) (congrArg₂ (· + ·) rfl (Finset.sum_congr rfl fun kk _ => ?_)) (Finset.sum_congr rfl fun kk _ => ?_))
    (congrArg _ (Finset.sum_congr rfl fun g _ => ?_))
  · rw [a_entry m c hA hS t t0 mm kk (t.val % 4 * 2048 + kk.val) (by rw [t0_val]; omega),
      q_entry m c hA hS t t0 nn kk (t.val % 4 * 2048 + kk.val) (by rw [t0_val]; omega),
      s_entry m c hA hS t t0 nn kk (t.val % 4 * 2048 + kk.val) (by rw [t0_val]; omega)]
  · rw [a_entry m c hA hS t t1 mm kk (t.val % 4 * 2048 + 1024 + kk.val) (by rw [t1_val]),
      q_entry m c hA hS t t1 nn kk (t.val % 4 * 2048 + 1024 + kk.val) (by rw [t1_val]),
      s_entry m c hA hS t t1 nn kk (t.val % 4 * 2048 + 1024 + kk.val) (by rw [t1_val])]
  · rw [g_entry m c hA hS t g mm, sg_entry m c hA hS t g nn]

end Entries

section Invariant

variable (hA : ∀ i, argA m c i ≠ ⊤ ∧ argA m c i ≠ ⊥) (hS : ∀ i, argS m c i ≠ ⊤ ∧ argS m c i ≠ ⊥)
include hA hS

/-- At the first K-tile of a column tile: from the zero fill, the sum over the first 2048 positions. -/
theorem step_first (t : Fin cfg0.N) (h0 : t.val % 4 = 0) (h1 : ¬t.val % 4 = 3) (mm : Fin 32) (nn : Fin 2048) :
    (outsAt0 m c t.val t.isLt).2 (ix2 mm nn)
      = ((prefixSum (act (argA m c) mm) (codeR (argQ m c) (col t nn)) (scale (argS m c) (col t nn)) ((t.val % 4 + 1) * 2048) : ℝ) : EReal) := by
  rw [outsAt0_A m c t h0 h1]
  dsimp only
  refine (congrFun (sout_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h))
    (aBlk m c t) (qBlk m c t) (sBlk m c t) (gBlk m c t) (bBlk m c t)) (ix2 mm nn)).trans ?_
  rw [tile_value m c hA hS t mm nn (k0_pay1 (F := Ideal)) 0 (by rw [pay1_apply]; exact EReal.coe_zero.symm), h0]
  have hz : prefixSum (act (argA m c) mm) (codeR (argQ m c) (col t nn)) (scale (argS m c) (col t nn)) (0 * 2048) = 0 := by
    unfold prefixSum; rw [Nat.zero_mul, Finset.sum_range_zero]
  exact congrArg _ ((congrArg (tileStep (act (argA m c) mm) (codeR (argQ m c) (col t nn)) (scale (argS m c) (col t nn)) 0) hz.symm).trans (tileStep_prefixSum _ _ _ 0))

/-- At a middle K-tile: one more tile over what the point before left. -/
theorem step_mid (t : Fin cfg0.N) (h0 : ¬t.val % 4 = 0) (h1 : ¬t.val % 4 = 3) (mm : Fin 32) (nn : Fin 2048)
    (hprev : (outsAt0 m c (t.val - 1) (Nat.lt_of_le_of_lt (Nat.sub_le _ _) t.isLt)).2 (ix2 mm nn)
      = ((prefixSum (act (argA m c) mm) (codeR (argQ m c) (col t nn)) (scale (argS m c) (col t nn)) (t.val % 4 * 2048) : ℝ) : EReal)) :
    (outsAt0 m c t.val t.isLt).2 (ix2 mm nn)
      = ((prefixSum (act (argA m c) mm) (codeR (argQ m c) (col t nn)) (scale (argS m c) (col t nn)) ((t.val % 4 + 1) * 2048) : ℝ) : EReal) := by
  rw [outsAt0_B m c t h0 h1]
  dsimp only
  refine (congrFun (sout_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h))
    (aBlk m c t) (qBlk m c t) (sBlk m c t) (gBlk m c t) (bBlk m c t) (outsAt0 m c (t.val - 1) (Nat.lt_of_le_of_lt (Nat.sub_le _ _) t.isLt)).2) (ix2 mm nn)).trans ?_
  rw [tile_value m c hA hS t mm nn _ _ hprev]
  exact congrArg _ (tileStep_prefixSum _ _ _ _)

/-- At the last K-tile: the same. -/
theorem step_last (t : Fin cfg0.N) (h0 : ¬t.val % 4 = 0) (h1 : t.val % 4 = 3) (mm : Fin 32) (nn : Fin 2048)
    (hprev : (outsAt0 m c (t.val - 1) (Nat.lt_of_le_of_lt (Nat.sub_le _ _) t.isLt)).2 (ix2 mm nn)
      = ((prefixSum (act (argA m c) mm) (codeR (argQ m c) (col t nn)) (scale (argS m c) (col t nn)) (t.val % 4 * 2048) : ℝ) : EReal)) :
    (outsAt0 m c t.val t.isLt).2 (ix2 mm nn)
      = ((prefixSum (act (argA m c) mm) (codeR (argQ m c) (col t nn)) (scale (argS m c) (col t nn)) ((t.val % 4 + 1) * 2048) : ℝ) : EReal) := by
  rw [outsAt0_C m c t h0 h1]
  dsimp only
  refine (congrFun (sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1)
    (aBlk m c t) (qBlk m c t) (sBlk m c t) (gBlk m c t) (bBlk m c t) (outsAt0 m c (t.val - 1) (Nat.lt_of_le_of_lt (Nat.sub_le _ _) t.isLt)).2) (ix2 mm nn)).trans ?_
  rw [tile_value m c hA hS t mm nn _ _ hprev]
  exact congrArg _ (tileStep_prefixSum _ _ _ _)

/-- THE ACCUMULATOR AFTER POINT `n`: the reference's sum over the first 2048 (n % 4 + 1) positions. -/
theorem acc_inv : ∀ (n : ℕ) (hn : n < cfg0.N) (mm : Fin 32) (nn : Fin 2048),
    (outsAt0 m c n hn).2 (ix2 mm nn)
      = ((prefixSum (act (argA m c) mm) (codeR (argQ m c) (col ⟨n, hn⟩ nn)) (scale (argS m c) (col ⟨n, hn⟩ nn)) ((n % 4 + 1) * 2048) : ℝ) : EReal) := by
  intro n
  induction n with
  | zero =>
    intro hn mm nn
    exact step_first m c hA hS ⟨0, hn⟩ rfl (by show ¬(0 % 4 = 3); decide) mm nn
  | succ n ih =>
    intro hn mm nn
    have hN : n + 1 < 16 := lt_of_lt_of_eq hn (show cfg0.N = 16 from N_0)
    by_cases h0 : (n + 1) % 4 = 0
    · exact step_first m c hA hS ⟨n + 1, hn⟩ h0 (by show ¬((n + 1) % 4 = 3); omega) mm nn
    · have e := ih (Nat.lt_of_succ_lt hn) mm nn
      have hcol : col ⟨n, Nat.lt_of_succ_lt hn⟩ nn = col ⟨n + 1, hn⟩ nn :=
        Fin.ext (by show n / 4 * 2048 + nn.val = (n + 1) / 4 * 2048 + nn.val; omega)
      have hk : n % 4 + 1 = (n + 1) % 4 := by omega
      rw [hcol, hk] at e
      by_cases h1 : (n + 1) % 4 = 3
      · exact step_last m c hA hS ⟨n + 1, hn⟩ h0 h1 mm nn e
      · exact step_mid m c hA hS ⟨n + 1, hn⟩ h0 h1 mm nn e

end Invariant

end Cert.KernelIdeal.Accum

end
-- ==== Proof.RealInputs.lean ====
/-
  The precondition, read: every entry of the activations and of the scales is a real number (neither
  infinity).  The printed predicate is  all(|A| < +inf) ∧ all(|scales| < +inf) ∧ all(|bias| < +inf);
  at the extended reals |x| is max x (-x), and max x (-x) < ⊤ excludes both ⊤ and ⊥.
-/
import proofs.«422950_j68556267979256_3_alg».proof.Pre_finite_inputs
import Idealize.ShloMosaic.Lib.ReduceAll
import Idealize.ShloMosaic.Lib.ValueIdx
import Idealize.ShloMosaic.PureOps.Ideal

noncomputable section

namespace Cert.QuantGemm

open Idealize.ShloMosaic

/-- The f32 pattern of +infinity denotes ⊤. -/
theorem ofBits_inf : Ideal.ofBits .f32 0x7F800000#32 = (⊤ : EReal) := by
  simp [Ideal.ofBits, Ideal.ieee]

/-- An extended real whose absolute value compares below +infinity is a real number. -/
theorem real_of_abs_lt_inf (x : EReal)
    (h : Ideal.cmp .olt (max x (-x)) (Ideal.ofBits .f32 0x7F800000#32) = 1#1) : x ≠ ⊤ ∧ x ≠ ⊥ := by
  rw [ofBits_inf] at h
  have hlt : max x (-x) < ⊤ := by
    unfold Ideal.cmp at h
    by_contra hn
    simp [hn] at h
  constructor
  · rintro rfl; simp at hlt
  · rintro rfl; simp at hlt

instance : Subsingleton (Cert.Pre_finite_inputs.S_).Idx := ⟨fun a b => funext fun d => d.elim0⟩

variable [Cert.Pre_finite_inputs.Facts]

/-- Under the printed precondition the activations and the scales are real at every index. -/
theorem real_inputs (A : FVec Ideal Cert.Pre_finite_inputs.S32x8192 .f32) (Q : IVec Cert.Pre_finite_inputs.S1024x8192 32)
    (S : FVec Ideal Cert.Pre_finite_inputs.S64x8192 .f32) (B : FVec Ideal Cert.Pre_finite_inputs.S8192 .f32)
    (h : Cert.Pre_finite_inputs.fn (F := Ideal) A Q S B = fun _ => 1#1) :
    (∀ i, A i ≠ ⊤ ∧ A i ≠ ⊥) ∧ (∀ i, S i ≠ ⊤ ∧ S i ≠ ⊥) := by
  have h0 := congrFun h ValueIdx.ix0
  dsimp only [Cert.Pre_finite_inputs.fn] at h0
  obtain ⟨h12, _⟩ := IntOp.andi_eq_one.mp h0
  obtain ⟨h1, h2⟩ := IntOp.andi_eq_one.mp h12
  refine ⟨fun i => real_of_abs_lt_inf (A i) ?_, fun i => real_of_abs_lt_inf (S i) ?_⟩
  · exact Host.reduce_andi_all _ _ _ _ _ h1 i
  · exact Host.reduce_andi_all _ _ _ _ _ h2 i

end Cert.QuantGemm

end
-- ==== Proof.RefValue.lean ====
/-
  The reference's result is the specification's `result`.  Read at entry (m, n) the reference is
      Σ_{k < 8192} A[m,k] * W[k,n] + bias[n],   W[k,n] = (code(k,n) - 8) * scales[k / 128, n],
  its reshapes putting row k of the unpacked codes at field k % 8 of packed row k / 8 and row k of W in group
  k / 128; with real activations and scales the sum is the real `prefixSum` at 8192.
-/
import proofs.«422950_j68556267979256_3_alg».proof.Proof.Gen.ReferenceIdeal.Read
import proofs.«422950_j68556267979256_3_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.QuantGemm

/-! ### The layout steps' index maps at explicit coordinates -/

theorem i12 (k n : Fin 8192) : idx_main_v12 (idx_main_v18 (ix2 k n)) = ix2 k n := by
  have hk := k.isLt; have hn := n.isLt
  funext a; apply Fin.ext
  match a with
  | ⟨0, _⟩ => show (((k.val * 8192 + n.val) / 1048576 * 128 + (k.val * 8192 + n.val) / 8192 % 128) * 8192 + (k.val * 8192 + n.val) % 8192) / 8192 = k.val; omega
  | ⟨1, _⟩ => show (((k.val * 8192 + n.val) / 1048576 * 128 + (k.val * 8192 + n.val) / 8192 % 128) * 8192 + (k.val * 8192 + n.val) % 8192) % 8192 = n.val; omega

theorem i10 (k n : Fin 8192) : idx_main_v10 (ix2 k n) = ix3 (⟨k.val / 8, by have := k.isLt; omega⟩ : Fin 1024) (⟨k.val % 8, by omega⟩ : Fin 8) n := by
  have hk := k.isLt; have hn := n.isLt
  funext a; apply Fin.ext
  match a with
  | ⟨0, _⟩ => show (k.val * 8192 + n.val) / 65536 = k.val / 8; omega
  | ⟨1, _⟩ => show (k.val * 8192 + n.val) / 8192 % 8 = k.val % 8; omega
  | ⟨2, _⟩ => show (k.val * 8192 + n.val) % 8192 = n.val; omega

theorem i5 (r : Fin 1024) (p : Fin 8) (n : Fin 8192) : idx_main_v4 (idx_main_v5 (ix3 r p n)) = ix2 r n := by
  funext a; apply Fin.ext
  match a with
  | ⟨0, _⟩ => rfl
  | ⟨1, _⟩ => rfl

theorem i6 (r : Fin 1024) (p : Fin 8) (n : Fin 8192) : idx_main_v3 (idx_main_v6 (ix3 r p n)) = ix1 p := by
  funext a; apply Fin.ext
  match a with
  | ⟨0, _⟩ => rfl

theorem i16 (k n : Fin 8192) : idx_main_v15 (idx_main_v16 (idx_main_v18 (ix2 k n))) = ix2 (⟨k.val / 128, by have := k.isLt; omega⟩ : Fin 64) n := by
  have hk := k.isLt; have hn := n.isLt
  funext a; apply Fin.ext
  match a with
  | ⟨0, _⟩ => show (k.val * 8192 + n.val) / 1048576 = k.val / 128; omega
  | ⟨1, _⟩ => show (k.val * 8192 + n.val) % 8192 = n.val; omega

/-- Row `k`, column `n` of the reference's dequantised weights. -/
theorem weight_apply (Q : (⟨S1024x8192, .i32⟩ : BufTy).Contents (Elt Ideal)) (S : (⟨S64x8192, .f32⟩ : BufTy).Contents (Elt Ideal))
    (k n : Fin 8192) :
    val_main_v18 (F := Ideal) Q S (ix2 k n)
      = ((((code (Q (ix2 ⟨k.val / 8, by have := k.isLt; omega⟩ n)) (k.val % 8)).toInt : ℝ) : EReal) - Ideal.ofBits .f32 0x41000000#32)
          * S (ix2 ⟨k.val / 128, by have := k.isLt; omega⟩ n) := by
  simp only [val_main_v18_apply, val_main_v17_apply, val_main_v14_apply, val_main_v12_apply, val_main_v11_apply, val_main_v10_apply,
    val_main_v9_apply, val_main_v7_apply, val_main_v5_apply, val_main_v4_apply, val_main_v6_apply, val_main_v3_apply,
    val_main_v2_apply, val_main_v1_apply, val_main_c_apply, val_main_v0_apply, val_main_v8_apply, val_main_c_0_apply,
    val_main_v13_apply, val_main_cst_apply, val_main_v16_apply, val_main_v15_apply, i12, i10, i5, i6, i16]
  rfl

/-- THE REFERENCE's result. -/
theorem ref_result (A : (⟨S32x8192, .f32⟩ : BufTy).Contents (Elt Ideal)) (Q : (⟨S1024x8192, .i32⟩ : BufTy).Contents (Elt Ideal))
    (S : (⟨S64x8192, .f32⟩ : BufTy).Contents (Elt Ideal)) (B : (⟨S8192, .f32⟩ : BufTy).Contents (Elt Ideal))
    (hA : ∀ i, A i ≠ ⊤ ∧ A i ≠ ⊥) (hS : ∀ i, S i ≠ ⊤ ∧ S i ≠ ⊥) :
    val_main_v22 (F := Ideal) A Q S B = result A Q S B := by
  funext i
  obtain ⟨mm, n, rfl⟩ : ∃ (mm : Fin 32) (n : Fin 8192), i = ix2 mm n := ⟨i 0, i 1, eq_ix2 i⟩
  rw [val_main_v22_apply, val_main_v19_apply, val_main_v21_apply, val_main_v20_apply]
  unfold result
  show (∑ k : Fin 8192, A (lidx_main_v19 (ix2 mm n) k) * val_main_v18 (F := Ideal) Q S (ridx_main_v19 (ix2 mm n) k))
      + B (idx_main_v20 (idx_main_v21 (ix2 mm n))) = _ + B (ix1 n)
  refine congrArg₂ (· + ·) ?_ (congrArg B ?_)
  · rw [← ref_coe]
    refine Finset.sum_congr rfl fun k _ => ?_
    have hl : lidx_main_v19 (ix2 mm n) k = ix2 mm k := funext fun a => Fin.ext (by match a with | ⟨0, _⟩ => rfl | ⟨1, _⟩ => rfl)
    have hr : ridx_main_v19 (ix2 mm n) k = ix2 k n := funext fun a => Fin.ext (by match a with | ⟨0, _⟩ => rfl | ⟨1, _⟩ => rfl)
    rw [hl, hr, weight_apply, ofBits_eight, codeR_eq Q n k.val k.isLt,
      show (ix2 mm k : S32x8192.Idx) = ix2 mm ⟨k.val, k.isLt⟩ from rfl, act_coe A hA mm k.val k.isLt,
      scale_coe S hS n (k.val / 128) (by have := k.isLt; omega)]
  · funext a; apply Fin.ext
    match a with
    | ⟨0, _⟩ => rfl

end Cert.ReferenceIdeal.RefValue

end
-- ==== Proof.Final.lean ====
/-
  The output array after the kernel's run, and the two programs' runs side by side.  Only the last K-tile of a
  column tile writes its output block back: that block is the finished accumulator plus the bias row, entry by
  entry the specification's `result`; the four such blocks tile the [32, 8192] array, so the array ends at
  `result`.  The reference's run ends at the same function (RefValue), from arguments that agree.
-/
import proofs.«422950_j68556267979256_3_alg».proof.Proof.KIValue
import proofs.«422950_j68556267979256_3_alg».proof.Proof.Accum
import proofs.«422950_j68556267979256_3_alg».proof.Proof.RealInputs
import proofs.«422950_j68556267979256_3_alg».proof.Proof.RefValue
import proofs.«422950_j68556267979256_3_alg».proof.Proof.Gen.ReferenceIdeal.Run
import proofs.«422950_j68556267979256_3_alg».proof.Proof.Gen.Pre_finite_inputs
import proofs.«422950_j68556267979256_3_alg».proof.Defs

noncomputable section

namespace Cert.KernelIdeal.Final

open Cert.KernelIdeal Cert.KernelIdeal.Gen Cert.KernelIdeal.GenP Idealize.ShloMosaic Idealize.ShloMosaic.TcCoe Idealize.SL.Sem
open Idealize.ShloMosaic.ValueIdx Cert.QuantGemm Cert.KernelIdeal.Blocks Cert.KernelIdeal.AccRun Cert.KernelIdeal.PayloadAt Cert.KernelIdeal.Accum
open Idealize.ShloMosaic.Pipeline (Dat)

variable (m : (ℓ : Loc nD τ sig) → Buf (Elt Ideal) ℓ) (ρ : Dev nD → PrngReg) (c : Dev nD)

/-- The function the output array ends at, on core `c`. -/
abbrev out (c : Dev nD) : S32x8192.Idx → EReal := result (argA m c) (argQ m c) (argS m c) (argB m c)

/-- An index of the output array is in point `t`'s block iff each coordinate is in the block's range. -/
theorem mem_blk5 (t : Fin cfg0.N) (i : S32x8192.Idx) :
    i ∈ ((cfg0.win 5).blk t).view.set ↔ ∀ a : Fin 2, win0_5.index t a * S32x2048.size a ≤ (i a).val ∧ (i a).val < win0_5.index t a * S32x2048.size a + S32x2048.size a := by
  show i ∈ ((View.whole main_v6).slice (win0_5.rect t)).set ↔ _
  rw [View.set_slice_whole, Rect.mem_set_unit]
  exact Iff.rfl

/-- Every index of the output array is in the block some last K-tile writes back. -/
theorem cover5 (i : S32x8192.Idx) : ∃ t : Fin cfg0.N, (cfg0.win 5).flush t = true ∧ i ∈ ((cfg0.win 5).blk t).view.set := by
  have hi0 : (i 0).val < 32 := (i 0).isLt
  have hi1 : (i 1).val < 8192 := (i 1).isLt
  have hb : (i 1).val / 2048 * 4 + 3 < cfg0.N := by rw [show cfg0.N = 16 from N_0]; omega
  refine ⟨⟨(i 1).val / 2048 * 4 + 3, hb⟩, (flush0_5 _).mpr (by show ((i 1).val / 2048 * 4 + 3) % 4 = 3; omega), ?_⟩
  obtain ⟨-, -, -, -, -, -, -, -, -, -, e50, e51⟩ := idx_facts ⟨(i 1).val / 2048 * 4 + 3, hb⟩
  have e51' : win0_5.index ⟨(i 1).val / 2048 * 4 + 3, hb⟩ (1 : Fin 2) = ((i 1).val / 2048 * 4 + 3) / 4 := e51
  rw [mem_blk5]
  intro a
  match a with
  | ⟨0, _⟩ => show win0_5.index _ (0 : Fin 2) * 32 ≤ (i 0).val ∧ (i 0).val < win0_5.index _ (0 : Fin 2) * 32 + 32; omega
  | ⟨1, _⟩ => show win0_5.index _ (1 : Fin 2) * 2048 ≤ (i 1).val ∧ (i 1).val < win0_5.index _ (1 : Fin 2) * 2048 + 2048; omega

section

variable (hA : ∀ i, argA m c i ≠ ⊤ ∧ argA m c i ≠ ⊥) (hS : ∀ i, argS m c i ≠ ⊤ ∧ argS m c i ≠ ⊥)
include hA hS

/-- WHAT A LAST K-TILE WRITES BACK is its block of `result`. -/
theorem flushed_eq (t : Fin cfg0.N) (hf : (cfg0.win 5).flush t = true) :
    (dats m 0 c).flushed 5 t = ((cfg0.win 5).blk t).view.read (Elt Ideal) (out m c) := by
  have h1 : t.val % 4 = 3 := (flush0_5 t).mp hf
  have h0 : ¬t.val % 4 = 0 := by omega
  have hN := N16 t
  obtain ⟨-, -, -, -, -, -, -, -, -, -, e50, e51⟩ := idx_facts t
  rw [Cert.KernelIdeal.ValueP.flushed5_C m c t h0 h1]
  refine funext fun (y : S32x2048.Idx) => ?_
  obtain ⟨mm, nn, rfl⟩ : ∃ (mm : Fin 32) (nn : Fin 2048), y = ix2 mm nn := ⟨y 0, y 1, eq_ix2 y⟩
  have hi : ((cfg0.win 5).blk t).view.emb (ix2 mm nn) = ix2 mm (col t nn) := by
    funext a; apply Fin.ext
    match a with
    | ⟨0, _⟩ => show win0_5.index t (0 : Fin 2) * 32 + 1 * mm.val = mm.val; omega
    | ⟨1, _⟩ => show win0_5.index t (1 : Fin 2) * 2048 + 1 * nn.val = t.val / 4 * 2048 + nn.val; omega
  show out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1)
      (aBlk m c t) (qBlk m c t) (sBlk m c t) (gBlk m c t) (bBlk m c t) (outsAt0 m c (t.val - 1) (Nat.lt_of_le_of_lt (Nat.sub_le _ _) t.isLt)).2 (ix2 mm nn)
    = out m c (((cfg0.win 5).blk t).view.emb (ix2 mm nn))
  rw [hi]
  refine (congrFun (out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1)
    (aBlk m c t) (qBlk m c t) (sBlk m c t) (gBlk m c t) (bBlk m c t) (outsAt0 m c (t.val - 1) (Nat.lt_of_le_of_lt (Nat.sub_le _ _) t.isLt)).2) (ix2 mm nn)).trans ?_
  have hprev := acc_inv m c hA hS (t.val - 1) (Nat.lt_of_le_of_lt (Nat.sub_le _ _) t.isLt) mm nn
  have hcol : col ⟨t.val - 1, Nat.lt_of_le_of_lt (Nat.sub_le _ _) t.isLt⟩ nn = col t nn :=
    Fin.ext (by show (t.val - 1) / 4 * 2048 + nn.val = t.val / 4 * 2048 + nn.val; omega)
  have hk : (t.val - 1) % 4 + 1 = t.val % 4 := by omega
  rw [hcol, hk] at hprev
  rw [pay4_apply, tile_value m c hA hS t mm nn _ _ hprev, bBlk_apply, tileStep_prefixSum, h1]
  rfl

/-- THE OUTPUT ARRAY after the run is `result` of the argument arrays. -/
theorem final : (dats m 0 c).arrAt 5 cfg0.N = out m c :=
  (dats m 0 c).arrAt_eq_of_cover 5 (out m c) (fun t hf => flushed_eq m c hA hS t hf) cover5

end

end Cert.KernelIdeal.Final

end
-- ==== Proof.Claims.lean ====
/-
  The five claims.  The kernel's frames are the generated frame runs; the reference's frame is its generated run
  with the result dropped; the idealization rewrote nothing, so `preserves` is `True`; and for the equivalence both
  programs, run from memories that agree on the four arguments, end with the output at the specification's
  `result` of those arguments: the kernel's array by the accumulation over its K-tiles (Final), the reference's by
  reading its operations at an index (RefValue) — the precondition making activations and scales real.
-/
import proofs.«422950_j68556267979256_3_alg».proof.Proof.Final
import proofs.«422950_j68556267979256_3_alg».proof.Proof.KFrame

noncomputable section

namespace Cert.Proof.Claims

open Idealize.ShloMosaic Idealize.ShloMosaic.TcCoe Idealize.SL.Sem

theorem frame_kernel : Cert.frame_Kernel := fun m ρ _ => Cert.Kernel.GenP.frame m ρ

theorem frame_kernelIdeal : Cert.frame_KernelIdeal := fun m ρ _ => Cert.KernelIdeal.GenP.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  have hreal := fun c => Cert.QuantGemm.real_inputs (Cert.KernelIdeal.Blocks.argA m c) (Cert.KernelIdeal.Blocks.argQ m c)
    (Cert.KernelIdeal.Blocks.argS m c) (Cert.KernelIdeal.Blocks.argB m c) (hpre c)
  refine ⟨fun c => Cert.KernelIdeal.Final.out m c, ?_, ?_⟩
  · exact (θ_run Cert.KernelIdeal.defs _ _).mono
      (fun r h c => ⟨(h c).1.trans (Cert.KernelIdeal.Final.final m c (hreal c).1 (hreal c).2), (h c).2⟩)
      (Cert.KernelIdeal.ValueP.run_blocks m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v22_eq, (hagree c).1, (hagree c).2.1, (hagree c).2.2.1, (hagree c).2.2.2]
    exact Cert.ReferenceIdeal.RefValue.ref_result _ _ _ _ (hreal c).1 (hreal c).2

end Cert.Proof.Claims

end
-- ==== Proof.lean ====
/- The certificate of the int4 weight-quantised matrix product: a Pallas kernel that multiplies the 4-bit codes by
   their group scales, accumulates the product over four K-tiles of 2048 (each in two half-tile steps), and takes the
   zero point off per tile as 8 times a small product of per-group activation sums and scales, against a reference
   that dequantises (code - 8) * scale first and multiplies once.  Over the reals the two agree by distributivity,
   which needs the activations and the scales finite: the precondition.  The modules, bottom up: TileAlgebra (the real
   arithmetic of one tile), Spec (the common result and the passage from extended reals with real entries), RealInputs
   (the precondition read), PayloadAt (the body's stored values at an entry), AccRun (the body's stores composed),
   Blocks (the windows' blocks as entries of the arguments), Accum (the accumulator point by point), RefValue (the
   reference at an entry), Final (the output array), Claims (the five claims). -/
import proofs.«422950_j68556267979256_3_alg».proof.Defs
import proofs.«422950_j68556267979256_3_alg».proof.Proof.Gen.Kernel
import proofs.«422950_j68556267979256_3_alg».proof.Proof.Gen.KernelIdeal
import proofs.«422950_j68556267979256_3_alg».proof.Proof.Gen.ReferenceIdeal
import proofs.«422950_j68556267979256_3_alg».proof.Proof.Gen.Pre_finite_inputs
import proofs.«422950_j68556267979256_3_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_referenceIdeal, Claims.preserves, Claims.algebraic⟩

end Cert.Proof

end
